-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S10000x64 : Shape := ⟨2, ![10000, 64]⟩
abbrev S200x10000 : Shape := ⟨2, ![200, 10000]⟩
abbrev S400x64 : Shape := ⟨2, ![400, 64]⟩
abbrev S200x128 : Shape := ⟨2, ![200, 128]⟩
abbrev S200x64 : Shape := ⟨2, ![200, 64]⟩
abbrev S200 : Shape := ⟨1, ![200]⟩
abbrev S200x1 : Shape := ⟨2, ![200, 1]⟩

abbrev nBuf : Space → Nat
  | .hbm => 9
  | .vmem => 13
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x128, .f32⟩
  | .hbm, ⟨7, _⟩ => ⟨S1x64, .f32⟩
  | .hbm, ⟨8, _⟩ => ⟨S10000x64, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S1x128, .f32⟩
  | .local _ .vmem, ⟨7, _⟩ => ⟨S128x64, .f32⟩
  | .local _ .vmem, ⟨8, _⟩ => ⟨S1x64, .f32⟩
  | .local _ .vmem, ⟨9, _⟩ => ⟨S400x64, .f32⟩
  | .local _ .vmem, ⟨10, _⟩ => ⟨S400x64, .f32⟩
  | .local _ .vmem, ⟨11, _⟩ => ⟨S10000x128, .f32⟩
  | .local _ .vmem, ⟨12, _⟩ => ⟨S10000x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) (c0_i32_14 : BitVec 32) : Fin 2 → Nat :=
  let arg1 : BitVec 32 := BitVec.ofNat 32 (i 1).val
  let c400_i32 : BitVec 32 := 400#32
  let v22 : BitVec 32 := Scalar.muli arg1 c400_i32
  let v23 : BitVec 32 := Scalar.addi v22 c0_i32_14
  let v24 : Index := Scalar.indexCast v23
  let c0_15 : Index := 0#32
  ![v24.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S400x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S128_S1x128 : S128.ShapeCasts S1x128
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  h_S200x64 : 0 < S200x64.numel
  shapeCasts_S200x64_S200x64 : S200x64.ShapeCasts S200x64
  inb_S10000x64_S10000x64_0_0 : ∀ a, (![0, 0] : Fin 2 → Nat) a + S10000x64.size a ≤ S10000x64.size a
  h_S10000x64 : 0 < S10000x64.numel
  reduces_S200x64_S200 : S200x64.Reduces [1] S200
  shapeCasts_S200_S200x1 : S200.ShapeCasts S200x1
  broadcasts_S200x1_S200x64 : S200x1.Broadcasts S200x64
  inb_S400x64_S200x64_0_0 : ∀ a, (![0, 0] : Fin 2 → Nat) a + S200x64.size a ≤ S400x64.size a
  inb_S400x64_S200x64_200_0 : ∀ a, (![200, 0] : Fin 2 → Nat) a + S200x64.size a ≤ S400x64.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S200x128_S128x64_S200x64_1_0_0_1_n_n_wf : DotDims.WF S200x128 S128x64 S200x64 [1] [0] [0] [1] [] []
  dot_S200x10000_S10000x64_S200x64_1_0_0_1_n_n_wf : DotDims.WF S200x10000 S10000x64 S200x64 [1] [0] [0] [1] [] []
  hrank0 : 0 < grid0.rank
  k0_off1_inb : ∀ i : grid0.Coords, ∀ (k0_h2 : k0_cond2 i = 1#1), ∀ (r : Fin 2), ∀ a, (k0_off1 i (BitVec.ofNat 32 (200 * r.val))) a + S200x64.size a ≤ S10000x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x64.size a ≤ S10000x64.size a
  hwx0_7 : ∀ i : grid0.Coords, EltTy.bits .f32 = 32 ∨ (Rect.block (s := S10000x64) S400x64.size (cc0_transform_7 i) (hinb0_7 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x64_S200x64_1_0_0_1_n_n : DotDims S200x128 S128x64 S200x64 where
  lhsContracting := [1]
  rhsContracting := [0]
  lhsNonContracting := [0]
  rhsNonContracting := [1]
  lhsBatch := []
  rhsBatch := []
  wf := dot_S200x128_S128x64_S200x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v1) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S400x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond3 i == 1#1) | ⟨_ + 8, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1x128 : Shape := ⟨2, ![1, 128]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 40
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S_, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S10000x128, .f32⟩
  | .hbm, ⟨14, _⟩ => ⟨S_, .f32⟩
  | .hbm, ⟨15, _⟩ => ⟨S10000x128, .f32⟩
  | .hbm, ⟨16, _⟩ => ⟨S10000x128, .f32⟩
  | .hbm, ⟨17, _⟩ => ⟨S10000x64, .f32⟩
  | .hbm, ⟨18, _⟩ => ⟨S1x64, .f32⟩
  | .hbm, ⟨19, _⟩ => ⟨S10000x64, .f32⟩
  | .hbm, ⟨20, _⟩ => ⟨S10000x64, .f32⟩
  | .hbm, ⟨21, _⟩ => ⟨S10000x64, .f32⟩
  | .hbm, ⟨22, _⟩ => ⟨S_, .f32⟩
  | .hbm, ⟨23, _⟩ => ⟨S10000x64, .f32⟩
  | .hbm, ⟨24, _⟩ => ⟨S10000x64, .f32⟩
  | .hbm, ⟨25, _⟩ => ⟨S_, .f32⟩
  | .hbm, ⟨26, _⟩ => ⟨S10000, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S10000x1, .f32⟩
  | .hbm, ⟨31, _⟩ => ⟨S10000x64, .f32⟩
  | .hbm, ⟨32, _⟩ => ⟨S10000x64, .f32⟩
  | .hbm, ⟨33, _⟩ => ⟨S10000x64, .f32⟩
  | .hbm, ⟨34, _⟩ => ⟨S_, .f32⟩
  | .hbm, ⟨35, _⟩ => ⟨S10000, .f32⟩
  | .hbm, ⟨36, _⟩ => ⟨S10000x1, .f32⟩
  | .hbm, ⟨37, _⟩ => ⟨S10000x1, .f32⟩
  | .hbm, ⟨38, _⟩ => ⟨S10000x64, .f32⟩
  | .hbm, ⟨39, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call1_cst : Ref sig .tc := ⟨.hbm, 14, rfl⟩
abbrev main_call1_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call2_cst : Ref sig .tc := ⟨.hbm, 22, rfl⟩
abbrev main_call2_v0 : Ref sig .tc := ⟨.hbm, 23, rfl⟩
abbrev main_v12 : Ref sig .tc := ⟨.hbm, 24, rfl⟩
abbrev main_call3_cst : Ref sig .tc := ⟨.hbm, 25, rfl⟩
abbrev main_call3_v0 : Ref sig .tc := ⟨.hbm, 26, rfl⟩
abbrev main_call3_cst_0 : Ref sig .tc := ⟨.hbm, 27, rfl⟩
abbrev main_call3_v1 : Ref sig .tc := ⟨.hbm, 28, rfl⟩
abbrev main_call3_v2 : Ref sig .tc := ⟨.hbm, 29, rfl⟩
abbrev main_call3_v3 : Ref sig .tc := ⟨.hbm, 30, rfl⟩
abbrev main_call3_v4 : Ref sig .tc := ⟨.hbm, 31, rfl⟩
abbrev main_call3_v5 : Ref sig .tc := ⟨.hbm, 32, rfl⟩
abbrev main_call3_v6 : Ref sig .tc := ⟨.hbm, 33, rfl⟩
abbrev main_call3_cst_1 : Ref sig .tc := ⟨.hbm, 34, rfl⟩
abbrev main_call3_v7 : Ref sig .tc := ⟨.hbm, 35, rfl⟩
abbrev main_call3_v8 : Ref sig .tc := ⟨.hbm, 36, rfl⟩
abbrev main_call3_v9 : Ref sig .tc := ⟨.hbm, 37, rfl⟩
abbrev main_call3_v10 : Ref sig .tc := ⟨.hbm, 38, rfl⟩
abbrev main_v13 : Ref sig .tc := ⟨.hbm, 39, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.LibSharedFrame.lean ====
/-
  A frame run for ONE pipelined region whose windows may SHARE an array (one array handed to the kernel through
  several input windows), with an invariant the certificate states point by point (what the body carries in its
  scratch buffers).  The region is entered holding the core's scoped buffers that are no staging buffer, each at
  some contents, and gives them back at the end; how the shared array's full share is dealt among the windows
  on it is the certificate's to say.  The conclusion is the library's frame post: every window's array at what
  the proof data compute after the last point, every other unscoped buffer as the region found it.
-/
import Idealize.ShloMosaic.Lib.Pipeline.Frame

noncomputable section

namespace Idealize.ShloMosaic.Pipeline

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run of a region whose windows may share arrays, with a tracking invariant. -/
theorem θ_run_frame_track_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl) (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr
      · iempintro
      · iexact H)
    (hin := fun c => (show iprop(emp ∗ scopedRest (cfgs p).spec c) ⊢ (scopedRest (cfgs p).spec c : sProp 𝕄) from by
      iintro ⟨-, H⟩; iexact H).trans (hin c))
    (hout := fun c => (hout c).trans (by
      iintro H
      isplitr
      · iempintro
      · iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Idealize.ShloMosaic.Pipeline

end
-- ==== Proof.KFrameKit.lean ====
/-
  The setting of the kernel's frame: the two reshapes of the bias vectors run before the one region; the region
  finds every argument array as launched; each input window's staging buffer holds its block of its array at
  every point.  The grid has 2 × 25 points, point t = 25·phase + row block.  The body's three conditionals are
  decided by the point alone: the first (fill the first scratch) holds at point 0 only, the second (phase 0)
  at the points below 25, the third (phase 1) from point 25 on.  The output window is left untouched, and is
  not written back, at the points of phase 0.
-/
import proofs.«114203_g75668733821266_cont_9to1_m_1126_15_alg».proof.Proof.Gen.KernelIdeal.Launch
import proofs.«114203_g75668733821266_cont_9to1_m_1126_15_alg».proof.Proof.Gen.KernelIdeal.Skeleton
import proofs.«114203_g75668733821266_cont_9to1_m_1126_15_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's TensorCore buffers when the region is entered: after the two reshapes. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- @main is the two reshapes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- The reshapes write only their own results: the region finds each argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 2).trans (((dats 0 c).arrAt_in 2 rfl _).trans ((hA c 2).trans (V_main_arg0 m c))),
     ((h c).1 0).trans (((dats 0 c).arrAt_in 0 rfl _).trans ((hA c 0).trans (V_main_arg1 m c))),
     ((h c).1 3).trans (((dats 0 c).arrAt_in 3 rfl _).trans ((hA c 3).trans (V_main_arg2 m c))),
     ((h c).2 main_arg3 (Pipeline.mem_restRefs_of main_arg3 (by decide) (by decide))).trans (V_main_arg3 m c),
     ((h c).1 5).trans (((dats 0 c).arrAt_in 5 rfl _).trans ((hA c 5).trans (V_main_arg4 m c))),
     ((h c).2 main_arg5 (Pipeline.mem_restRefs_of main_arg5 (by decide) (by decide))).trans (V_main_arg5 m c)⟩) h

/-! ## The body's three conditionals, decided over the grid -/

/-- Phase 0 and row block 0. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val = 0 :=
  (by decide +kernel : ∀ t : Fin grid0.N, cond0_0 (grid0.coords t) ↔ t.val = 0)

/-- Phase 0. -/
abbrev cond0_1 (i : grid0.Coords) : Prop := k0_cond2 i = 1#1
theorem hcond0_1 : ∀ t : Fin cfg0.N, cond0_1 (grid0.coords t) ↔ t.val < 25 :=
  (by decide +kernel : ∀ t : Fin grid0.N, cond0_1 (grid0.coords t) ↔ t.val < 25)

/-- Phase 1. -/
abbrev cond0_2 (i : grid0.Coords) : Prop := k0_cond3 i = 1#1
theorem hcond0_2 : ∀ t : Fin cfg0.N, cond0_2 (grid0.coords t) ↔ 25 ≤ t.val :=
  (by decide +kernel : ∀ t : Fin grid0.N, cond0_2 (grid0.coords t) ↔ 25 ≤ t.val)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- In phase 0 the output window is idle and not written back. -/
theorem idleAt0_7 : ∀ t : Fin cfg0.N, ¬cond0_2 (grid0.coords t) → cfg0.idle 7 (grid0.coords t) = true := by decide +kernel
theorem noFlush0_7 : ∀ t : Fin cfg0.N, ¬cond0_2 (grid0.coords t) → (cfg0.win 7).flush t = false := by decide +kernel
/-- In phase 1 it is live. -/
theorem liveAt0_7 : ∀ t : Fin cfg0.N, cond0_2 (grid0.coords t) → cfg0.idle 7 (grid0.coords t) = false := by decide +kernel
/-- And written back at every point of phase 1. -/
theorem flush0_7 : ∀ t : Fin cfg0.N, (cfg0.win 7).flush t = true ↔ 25 ≤ t.val :=
  (by decide +kernel : ∀ t : Fin grid0.N, win0_7.flush t = true ↔ 25 ≤ t.val)

/-! ## The staging memrefs at a point, and the two scratch buffers -/

abbrev ms0_0 (t : Fin cfg0.N) : Memref sig .tc .vmem S200x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S400x64 .f32 := win0_7.stage (cfg0.slots t 7)
abbrev hs0_7 (t : Fin cfg0.N) : (ms0_7 t).IsWhole := hstage0_7 ((cfg0.slots t 7).cast nbuf0_7)
/-- One staging buffer of the output window, through which its contents are stated. -/
abbrev VO0_7 : View sig .tc .vmem S400x64 .f32 := (Memref.whole cc0_stg7_0 : Memref sig .tc .vmem S400x64 .f32).view
/-- The first scratch (10000 × 128) and the second (10000 × 64): whole scoped buffers of the kernel's own. -/
abbrev scM0_0 : Memref sig .tc .vmem S10000x128 .f32 := Memref.whole cc0_scratch0
abbrev scM0_1 : Memref sig .tc .vmem S10000x64 .f32 := Memref.whole cc0_scratch1
abbrev VS0_0 : View sig .tc .vmem S10000x128 .f32 := scM0_0.view
abbrev VS0_1 : View sig .tc .vmem S10000x64 .f32 := scM0_1.view

/-- The launch's invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KRunC.lean ====
/-
  The kernel body at a point of phase 1 (the first two conditionals not taken, the third taken), run once on
  whole staging memrefs at given contents: the seven inputs and both scratch buffers are handed back as found,
  and the output window's buffer ends with the two stored half blocks written over whatever it held.  The list
  of stored pieces is what the run finds; it is then identified: rows 200..399 hold the second payload, rows
  0..199 the first, each a function of the point's adjacency block and of the whole second scratch.
-/
import proofs.«114203_g75668733821266_cont_9to1_m_1126_15_alg».proof.Proof.KFrameKit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S400x64 .f32) (harg9 : arg9.IsWhole) (arg10 : Memref sig .tc .vmem S10000x128 .f32) (harg10 : arg10.IsWhole) (arg11 : Memref sig .tc .vmem S10000x64 .f32) (harg11 : arg11.IsWhole) (hc0 : ¬cond0_0 i) (hc1 : ¬cond0_1 i) (hc2 : cond0_2 i)
    (x0 : Vec F S200x10000 .f32) (x1 : Vec F S200x10000 .f32) (x2 : Vec F S10000x128 .f32) (x3 : Vec F S128x128 .f32) (x4 : Vec F S1x128 .f32) (x5 : Vec F S128x64 .f32) (x6 : Vec F S1x64 .f32) (xs0 : Vec F S10000x128 .f32) (xs1 : Vec F S10000x64 .f32) :
    { L7 : List (View.Piece (Elt F) S400x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xs0 ∗ owns (c : Thread nD τ) arg11 fullShare xs1) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0; obtain rfl := harg11.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]
    · iexists _; isplitr; · ipureintro; exact harg10.read_unread _
      iexact HS0
    iexists _; isplitr; · ipureintro; exact harg11.read_unread _
    iexact HS1

/-- The offsets (0, 0) are the zero offsets. -/
theorem hz2 : (![0, 0] : Fin 2 → Nat) = fun _ => 0 := by funext a; fin_cases a <;> rfl

/-- The pieces the run of phase 1 found: the two log-softmax payloads of the adjacency blocks against the whole
    second scratch, at rows 200..399 and 0..199 of the output block. -/
theorem L7_C_eq (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S400x64 .f32) (harg9 : arg9.IsWhole) (arg10 : Memref sig .tc .vmem S10000x128 .f32) (harg10 : arg10.IsWhole) (arg11 : Memref sig .tc .vmem S10000x64 .f32) (harg11 : arg11.IsWhole) (hc0 : ¬cond0_0 i) (hc1 : ¬cond0_1 i) (hc2 : cond0_2 i)
    (x0 : Vec F S200x10000 .f32) (x1 : Vec F S200x10000 .f32) (x2 : Vec F S10000x128 .f32) (x3 : Vec F S128x128 .f32) (x4 : Vec F S1x128 .f32) (x5 : Vec F S128x64 .f32) (x6 : Vec F S1x64 .f32) (xs0 : Vec F S10000x128 .f32) (xs1 : Vec F S10000x64 .f32) :
    (kernelRun0_C c i arg2 harg2 arg3 harg3 arg4 harg4 arg5 harg5 arg6 harg6 arg7 harg7 arg8 harg8 arg9 harg9 arg10 harg10 arg11 harg11 hc0 hc1 hc2 x0 x1 x2 x3 x4 x5 x6 xs0 xs1).1
      = [⟨Rect.unit (s := S400x64) ![200, 0] S200x64.size inb_S400x64_S200x64_200_0, k0_pay4 x1 xs1⟩,
         ⟨Rect.unit (s := S400x64) ![0, 0] S200x64.size inb_S400x64_S200x64_0_0, k0_pay3 x0 xs1⟩] := by
  unfold kernelRun0_C
  dsimp only
  simp only [View.readAt_eq_ld, harg2.read_unread, harg3.read_unread, harg11.read_unread,
    View.ld_unit_zero (S := S200x10000) hz2, View.ld_unit_zero (S := S10000x64) hz2]

end Cert.KernelIdeal.Hand

end
-- ==== Proof.KRunB.lean ====
/-
  The kernel body at a point of phase 0 other than the first (only the second conditional taken), run once on
  whole staging memrefs at given contents: the seven inputs, the idle output window and the first scratch are
  handed back as found; the second scratch ends with the point's two half blocks of 200 rows written over what
  it held.  The list of stored pieces is what the run finds.
-/
import proofs.«114203_g75668733821266_cont_9to1_m_1126_15_alg».proof.Proof.KRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S400x64 .f32) (harg9 : arg9.IsWhole) (arg10 : Memref sig .tc .vmem S10000x128 .f32) (harg10 : arg10.IsWhole) (arg11 : Memref sig .tc .vmem S10000x64 .f32) (harg11 : arg11.IsWhole) (hc0 : ¬cond0_0 i) (hc1 : cond0_1 i) (hc2 : ¬cond0_2 i)
    (x0 : Vec F S200x10000 .f32) (x1 : Vec F S200x10000 .f32) (x2 : Vec F S10000x128 .f32) (x3 : Vec F S128x128 .f32) (x4 : Vec F S1x128 .f32) (x5 : Vec F S128x64 .f32) (x6 : Vec F S1x64 .f32) (xs0 : Vec F S10000x128 .f32) (xs1 : Vec F S10000x64 .f32) :
    { LS1 : List (View.Piece (Elt F) S10000x64 .f32) //
      ∀ (xi7 : Vec F S400x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0 ∗ (arg11.view.loc (c : Thread nD τ) ↦[arg11.view.set]{fullShare} arg11.view.writes (Elt F) (harg11.unread xs1) LS1)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11) K } := by
  refine ⟨?_, fun xi7 E K => ?run⟩
  case run =>
    simp only [cc0__gcn_kernel_eq_skeleton, k0_part1_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; isplitr; · ipureintro; exact harg10.read_unread _
      iexact HS0
    iexact HS1

/-- The pieces the run of a later point of phase 0 found: rows off+200..off+399 and off..off+199 of the second
    scratch, each the payload relu(block · s0)·W1 + b1 of one adjacency block. -/
theorem LS1_B_eq (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S400x64 .f32) (harg9 : arg9.IsWhole) (arg10 : Memref sig .tc .vmem S10000x128 .f32) (harg10 : arg10.IsWhole) (arg11 : Memref sig .tc .vmem S10000x64 .f32) (harg11 : arg11.IsWhole) (hc0 : ¬cond0_0 i) (hc1 : cond0_1 i) (hc2 : ¬cond0_2 i)
    (x0 : Vec F S200x10000 .f32) (x1 : Vec F S200x10000 .f32) (x2 : Vec F S10000x128 .f32) (x3 : Vec F S128x128 .f32) (x4 : Vec F S1x128 .f32) (x5 : Vec F S128x64 .f32) (x6 : Vec F S1x64 .f32) (xs0 : Vec F S10000x128 .f32) (xs1 : Vec F S10000x64 .f32) :
    (kernelRun0_B c i arg2 harg2 arg3 harg3 arg4 harg4 arg5 harg5 arg6 harg6 arg7 harg7 arg8 harg8 arg9 harg9 arg10 harg10 arg11 harg11 hc0 hc1 hc2 x0 x1 x2 x3 x4 x5 x6 xs0 xs1).1
      = [⟨Rect.unit (s := S10000x64) (k0_off1 i 200#32) S200x64.size (k0_off1_inb i hc1 1), k0_pay2 (k0_pay6 x1 xs0 x5 x6)⟩,
         ⟨Rect.unit (s := S10000x64) (k0_off1 i 0#32) S200x64.size (k0_off1_inb i hc1 0), k0_pay5 x0 xs0 x5 x6⟩] := by
  unfold kernelRun0_B
  dsimp only
  sl_unfold_run_names
  simp only [View.readAt_eq_ld, harg2.read_unread, harg3.read_unread, harg7.read_unread, harg8.read_unread, harg10.read_unread,
    View.ld_unit_zero (S := S200x10000) hz2, View.ld_unit_zero (S := S10000x128) hz2, View.ld_unit_zero (S := S128x64) hz2,
    View.ld_unit_zero (S := S1x64) hz2]

end Cert.KernelIdeal.Hand

end
-- ==== Proof.KRunA.lean ====
/-
  The kernel body at the first point (the first two conditionals taken): the first scratch, whatever it held,
  is stored whole with relu(x)·W0 + b0, and the second scratch gets the point's two half blocks written over
  whatever it held; the seven inputs and the idle output window are handed back as found.  The lists of stored
  pieces are what the run finds.
-/
import proofs.«114203_g75668733821266_cont_9to1_m_1126_15_alg».proof.Proof.KRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S400x64 .f32) (harg9 : arg9.IsWhole) (arg10 : Memref sig .tc .vmem S10000x128 .f32) (harg10 : arg10.IsWhole) (arg11 : Memref sig .tc .vmem S10000x64 .f32) (harg11 : arg11.IsWhole) (hc0 : cond0_0 i) (hc1 : cond0_1 i) (hc2 : ¬cond0_2 i)
    (x0 : Vec F S200x10000 .f32) (x1 : Vec F S200x10000 .f32) (x2 : Vec F S10000x128 .f32) (x3 : Vec F S128x128 .f32) (x4 : Vec F S1x128 .f32) (x5 : Vec F S128x64 .f32) (x6 : Vec F S1x64 .f32) :
    Σ' (LS0 : List (View.Piece (Elt F) S10000x128 .f32)), { LS1 : List (View.Piece (Elt F) S10000x64 .f32) //
      ∀ (xi7 : Vec F S400x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11) K } := by
  refine ⟨?_, ?_, fun xi7 E K => ?run⟩
  case run =>
    simp only [cc0__gcn_kernel_eq_skeleton, k0_part1_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

/-- The one piece the first point stores into the first scratch: the whole of relu(x)·W0 + b0. -/
theorem LS0_A_eq (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S400x64 .f32) (harg9 : arg9.IsWhole) (arg10 : Memref sig .tc .vmem S10000x128 .f32) (harg10 : arg10.IsWhole) (arg11 : Memref sig .tc .vmem S10000x64 .f32) (harg11 : arg11.IsWhole) (hc0 : cond0_0 i) (hc1 : cond0_1 i) (hc2 : ¬cond0_2 i)
    (x0 : Vec F S200x10000 .f32) (x1 : Vec F S200x10000 .f32) (x2 : Vec F S10000x128 .f32) (x3 : Vec F S128x128 .f32) (x4 : Vec F S1x128 .f32) (x5 : Vec F S128x64 .f32) (x6 : Vec F S1x64 .f32) :
    (kernelRun0_A c i arg2 harg2 arg3 harg3 arg4 harg4 arg5 harg5 arg6 harg6 arg7 harg7 arg8 harg8 arg9 harg9 arg10 harg10 arg11 harg11 hc0 hc1 hc2 x0 x1 x2 x3 x4 x5 x6).1
      = [⟨Rect.unit (s := S10000x128) ![0, 0] S10000x128.size inb_S10000x128_S10000x128_0_0, k0_pay1 x2 x3 x4⟩] := by
  unfold kernelRun0_A
  dsimp only
  sl_unfold_run_names
  simp only [View.readAt_eq_ld, harg4.read_unread, harg5.read_unread, harg6.read_unread,
    View.ld_unit_zero (S := S10000x128) hz2, View.ld_unit_zero (S := S128x128) hz2, View.ld_unit_zero (S := S1x128) hz2]

/-- The two pieces the first point stores into the second scratch, computed from the first scratch as just stored. -/
theorem LS1_A_eq (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S400x64 .f32) (harg9 : arg9.IsWhole) (arg10 : Memref sig .tc .vmem S10000x128 .f32) (harg10 : arg10.IsWhole) (arg11 : Memref sig .tc .vmem S10000x64 .f32) (harg11 : arg11.IsWhole) (hc0 : cond0_0 i) (hc1 : cond0_1 i) (hc2 : ¬cond0_2 i)
    (x0 : Vec F S200x10000 .f32) (x1 : Vec F S200x10000 .f32) (x2 : Vec F S10000x128 .f32) (x3 : Vec F S128x128 .f32) (x4 : Vec F S1x128 .f32) (x5 : Vec F S128x64 .f32) (x6 : Vec F S1x64 .f32) :
    (kernelRun0_A c i arg2 harg2 arg3 harg3 arg4 harg4 arg5 harg5 arg6 harg6 arg7 harg7 arg8 harg8 arg9 harg9 arg10 harg10 arg11 harg11 hc0 hc1 hc2 x0 x1 x2 x3 x4 x5 x6).2.1
      = [⟨Rect.unit (s := S10000x64) (k0_off1 i 200#32) S200x64.size (k0_off1_inb i hc1 1), k0_pay2 (k0_pay6 x1 (k0_pay1 x2 x3 x4) x5 x6)⟩,
         ⟨Rect.unit (s := S10000x64) (k0_off1 i 0#32) S200x64.size (k0_off1_inb i hc1 0), k0_pay5 x0 (k0_pay1 x2 x3 x4) x5 x6⟩] := by
  unfold kernelRun0_A
  dsimp only
  sl_unfold_run_names
  simp only [View.readAt_eq_ld, harg2.read_unread, harg3.read_unread, harg4.read_unread, harg5.read_unread, harg6.read_unread,
    harg7.read_unread, harg8.read_unread,
    View.ld_unit_zero (S := S200x10000) hz2, View.ld_unit_zero (S := S10000x128) hz2, View.ld_unit_zero (S := S128x128) hz2,
    View.ld_unit_zero (S := S1x128) hz2, View.ld_unit_zero (S := S128x64) hz2, View.ld_unit_zero (S := S1x64) hz2,
    View.readCov_unit_zero (S := S10000x128) _ hz2]

end Cert.KernelIdeal.Hand

end
-- ==== Proof.KDefs.lean ====
/-
  What the kernel keeps and leaves, point by point, as functions of the argument arrays (at any float
  instance).  The first scratch is filled once, at the first point, with s0 = relu(x)·W0 + b0 (the first stored
  payload of the whole input).  The second scratch is filled 400 rows a point during phase 0: rows
  400t .. 400t+199 from the first adjacency window's block at point t, rows 400t+200 .. 400t+399 from the
  second window's, each the payload relu(block · s0)·W1 + b1; `s1c` is the array these rows make.  At a
  point of phase 1 the output block is the two stored half blocks, each the log-softmax payload of an adjacency
  block against the whole of `s1c`.  Between points the invariant holds the first scratch at s0 and the second
  at SOME contents that agree with `s1c` on the rows written so far (400 per point; all 10000 from point 24 on).
-/
import proofs.«114203_g75668733821266_cont_9to1_m_1126_15_alg».proof.Proof.KFrameKit
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks at their literal types -/

abbrev adjLo (c : Dev nD) (t : Fin cfg0.N) : Vec F S200x10000 .f32 := iblk m c 0 t
abbrev adjHi (c : Dev nD) (t : Fin cfg0.N) : Vec F S200x10000 .f32 := iblk m c 1 t
abbrev xAll (c : Dev nD) (t : Fin cfg0.N) : Vec F S10000x128 .f32 := iblk m c 2 t
abbrev w0All (c : Dev nD) (t : Fin cfg0.N) : Vec F S128x128 .f32 := iblk m c 3 t
abbrev b0Row (c : Dev nD) (t : Fin cfg0.N) : Vec F S1x128 .f32 := iblk m c 4 t
abbrev w1All (c : Dev nD) (t : Fin cfg0.N) : Vec F S128x64 .f32 := iblk m c 5 t
abbrev b1Row (c : Dev nD) (t : Fin cfg0.N) : Vec F S1x64 .f32 := iblk m c 6 t

/-- The first point. -/
def t0 : Fin cfg0.N := ⟨0, lt_of_lt_of_eq (by decide : 0 < 50) N_0.symm⟩

/-- The first scratch after the first point: relu(x)·W0 + b0. -/
def s0c (c : Dev nD) : Vec F S10000x128 .f32 := k0_pay1 (xAll m c t0) (w0All m c t0) (b0Row m c t0)

theorem rowPt_lt (j : S10000x64.Idx) : (j 0).val / 400 < cfg0.N := by
  have h := ValueIdx.idx2_lt0 j
  show (j 0).val / 400 < grid0.N
  rw [N_0]; omega

/-- The point of phase 0 that writes row (j 0) of the second scratch. -/
def rowPt (j : S10000x64.Idx) : Fin cfg0.N := ⟨(j 0).val / 400, rowPt_lt j⟩

/-- The second scratch once phase 0 has filled it. -/
def s1c (c : Dev nD) : Vec F S10000x64 .f32 := fun j =>
  if h : (j 0).val % 400 < 200 then
    k0_pay5 (adjLo m c (rowPt j)) (s0c m c) (w1All m c (rowPt j)) (b1Row m c (rowPt j))
      (ValueIdx.ix2 (⟨(j 0).val % 400, h⟩ : Fin 200) (⟨(j 1).val, ValueIdx.idx2_lt1 j⟩ : Fin 64))
  else
    k0_pay2 (k0_pay6 (adjHi m c (rowPt j)) (s0c m c) (w1All m c (rowPt j)) (b1Row m c (rowPt j)))
      (ValueIdx.ix2 (⟨(j 0).val % 400 - 200, by omega⟩ : Fin 200) (⟨(j 1).val, ValueIdx.idx2_lt1 j⟩ : Fin 64))

/-- The output window's block as a point of phase 1 leaves it: rows 200..399 from the second adjacency
    window's block, rows 0..199 from the first's. -/
def out7 (c : Dev nD) (t : Fin cfg0.N) : Vec F S400x64 .f32 :=
  View.canon [(⟨Rect.unit (s := S400x64) ![200, 0] S200x64.size inb_S400x64_S200x64_200_0, k0_pay4 (adjHi m c t) (s1c m c)⟩ : View.Piece (Elt F) S400x64 .f32),
    ⟨Rect.unit (s := S400x64) ![0, 0] S200x64.size inb_S400x64_S200x64_0_0, k0_pay3 (adjLo m c t) (s1c m c)⟩]

/-- Contents of the second scratch that agree with `s1c` on the first 400·n rows. -/
def Agree (c : Dev nD) (n : ℕ) (X : Vec F S10000x64 .f32) : Prop :=
  ∀ j : S10000x64.Idx, (j 0).val < 400 * n → X j = s1c m c j

/-- The region's invariant before point n: at first both scratch buffers at anything; afterwards the first at
    s0 and the second at contents agreeing with `s1c` on the rows the points so far have written. -/
def PhiS (c : Dev nD) : ℕ → sProp 𝕄
  | 0 => Pipeline.scopedRest (Ix := Unit) (Name := ℕ) (U := UR sig nD τ) (Lvl := ℕ) (Val := Elt F) spec0 c
  | n + 1 => iprop(owns (c : Thread nD τ) scM0_0 fullShare (s0c m c)
      ∗ (∃ X : Vec F S10000x64 .f32, ⌜Agree m c (n + 1) X⌝ ∗ owns (c : Thread nD τ) scM0_1 fullShare X))

theorem PhiS_zero_eq (c : Dev nD) :
    PhiS m c 0 = iprop((∃ d, owns (c : Thread nD τ) scM0_0 fullShare d) ∗ (∃ d, owns (c : Thread nD τ) scM0_1 fullShare d)) := by
  show Pipeline.scopedRest (Ix := Unit) (Name := ℕ) (U := UR sig nD τ) (Lvl := ℕ) (Val := Elt F) spec0 c = _
  rw [scopedRest0_eq]; simp only [scM0_0, scM0_1, owns_whole]; try rfl

theorem PhiS_succ (c : Dev nD) (n : ℕ) :
    PhiS m c (n + 1) = iprop(owns (c : Thread nD τ) scM0_0 fullShare (s0c m c)
      ∗ (∃ X : Vec F S10000x64 .f32, ⌜Agree m c (n + 1) X⌝ ∗ owns (c : Thread nD τ) scM0_1 fullShare X)) := rfl

theorem PhiS_pos (c : Dev nD) (n : ℕ) (hz : n ≠ 0) :
    PhiS m c n = iprop(owns (c : Thread nD τ) scM0_0 fullShare (s0c m c)
      ∗ (∃ X : Vec F S10000x64 .f32, ⌜Agree m c n X⌝ ∗ owns (c : Thread nD τ) scM0_1 fullShare X)) := by
  cases n with
  | zero => exact absurd rfl hz
  | succ n => rfl

/-! ## The pipeline's proof data -/

/-- The arrays as the region finds them; after the body each input's buffer at its block, the output's at the
    point's block (consulted at the points of phase 1 only); the two windows on the adjacency matrix hold half
    its share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c t
  Φ t := PhiS m c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := by
  dsimp only [dats]; simp only [Fin.val_succ]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out7 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

end Cert.KernelIdeal.Hand

end
-- ==== Proof.KAgree.lean ====
/-
  The second scratch during phase 0, as pure facts about reads after writes (at any float instance).  A point t
  of phase 0 stores two pieces into it: rows 400t+200 .. 400t+399 (the payload of the second adjacency block) and
  rows 400t .. 400t+199 (the payload of the first).  If the contents before the point agree with `s1c` on the
  first 400t rows, the contents after it agree on the first 400(t+1): the new rows are `s1c`'s by its
  definition, the old ones are untouched.  Once 25 points have run every row is written.
-/
import proofs.«114203_g75668733821266_cont_9to1_m_1126_15_alg».proof.Proof.KDefs
import Idealize.ShloMosaic.Lib.Writes

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two coordinates of the offset chain at each of the two stores, decided over the grid's points. -/
private theorem off_facts : ∀ t : Fin grid0.N, cond0_1 (grid0.coords t) →
    (k0_off1 (grid0.coords t) 0#32 0 = 400 * t.val ∧ k0_off1 (grid0.coords t) 0#32 1 = 0)
    ∧ (k0_off1 (grid0.coords t) 200#32 0 = 400 * t.val + 200 ∧ k0_off1 (grid0.coords t) 200#32 1 = 0) := by
  decide +kernel

/-- The offsets of the two stores at a point of phase 0. -/
theorem off_lo (t : Fin cfg0.N) (h : cond0_1 (grid0.coords t)) : k0_off1 (grid0.coords t) 0#32 = ![400 * t.val, 0] := by
  obtain ⟨⟨h0, h1⟩, -⟩ := off_facts t h
  funext a
  match a with
  | ⟨0, _⟩ => exact h0
  | ⟨1, _⟩ => exact h1
theorem off_hi (t : Fin cfg0.N) (h : cond0_1 (grid0.coords t)) : k0_off1 (grid0.coords t) 200#32 = ![400 * t.val + 200, 0] := by
  obtain ⟨-, h0, h1⟩ := off_facts t h
  funext a
  match a with
  | ⟨0, _⟩ => exact h0
  | ⟨1, _⟩ => exact h1

/-- A row of the second scratch lies in a 200-row piece that starts at column 0 iff its first coordinate is one
    of the piece's 200 rows: the piece spans all 64 columns. -/
private theorem mem_unit_iff (off : Fin 2 → Nat) (inb) (j : S10000x64.Idx) (h1 : off 1 = 0) :
    j ∈ (Rect.unit (s := S10000x64) off S200x64.size inb).set ↔ off 0 ≤ (j 0).val ∧ (j 0).val < off 0 + 200 := by
  rw [Rect.mem_set_unit]
  have hj1 := ValueIdx.idx2_lt1 j
  constructor
  · intro hm; exact hm 0
  · intro hm a
    match a with
    | ⟨0, _⟩ => exact hm
    | ⟨1, _⟩ =>
      show off 1 ≤ (j 1).val ∧ (j 1).val < off 1 + 64
      rw [h1]; omega

/-- The first piece of point t holds rows 400t .. 400t+199; -/
private theorem mem_lo_iff (t : Fin cfg0.N) (h : cond0_1 (grid0.coords t)) (inb) (j : S10000x64.Idx) :
    j ∈ (Rect.unit (s := S10000x64) (k0_off1 (grid0.coords t) 0#32) S200x64.size inb).set
      ↔ 400 * t.val ≤ (j 0).val ∧ (j 0).val < 400 * t.val + 200 := by
  obtain ⟨⟨h0, h1⟩, -⟩ := off_facts t h
  rw [mem_unit_iff _ inb j h1, h0]

/-- the second rows 400t+200 .. 400t+399. -/
private theorem mem_hi_iff (t : Fin cfg0.N) (h : cond0_1 (grid0.coords t)) (inb) (j : S10000x64.Idx) :
    j ∈ (Rect.unit (s := S10000x64) (k0_off1 (grid0.coords t) 200#32) S200x64.size inb).set
      ↔ 400 * t.val + 200 ≤ (j 0).val ∧ (j 0).val < 400 * t.val + 200 + 200 := by
  obtain ⟨-, h0, h1⟩ := off_facts t h
  rw [mem_unit_iff _ inb j h1, h0]

/-- A piece's inner index (x0, x1) sits at row offset + x0, column offset + x1 of the scratch. -/
private theorem emb_val0 (off : Fin 2 → Nat) (inb) (x0 : Fin 200) (x1 : Fin 64) :
    ((Rect.unit (s := S10000x64) off S200x64.size inb).emb (ValueIdx.ix2 x0 x1) 0).val = off 0 + x0.val := by
  rw [Rect.emb_apply]
  show off 0 + 1 * x0.val = _
  omega
private theorem emb_val1 (off : Fin 2 → Nat) (inb) (x0 : Fin 200) (x1 : Fin 64) :
    ((Rect.unit (s := S10000x64) off S200x64.size inb).emb (ValueIdx.ix2 x0 x1) 1).val = off 1 + x1.val := by
  rw [Rect.emb_apply]
  show off 1 + 1 * x1.val = _
  omega

/-- `s1c` at row 400t + x0 (x0 below 200), column x1: the first block's payload at (x0, x1). -/
private theorem s1c_lo (c : Dev nD) (t : Fin cfg0.N) (J : S10000x64.Idx) (x0 : Fin 200) (x1 : Fin 64)
    (h0 : (J 0).val = 400 * t.val + x0.val) (h1 : (J 1).val = x1.val) :
    s1c m c J = k0_pay5 (adjLo m c t) (s0c m c) (w1All m c t) (b1Row m c t) (ValueIdx.ix2 x0 x1) := by
  have hx0 := x0.isLt
  have hr : rowPt J = t := Fin.ext (by show (J 0).val / 400 = t.val; omega)
  have hm : (J 0).val % 400 < 200 := by omega
  unfold s1c
  rw [dif_pos hm, hr]
  refine congrArg _ ?_
  refine congrArg₂ ValueIdx.ix2 (Fin.ext ?_) (Fin.ext ?_)
  · show (J 0).val % 400 = x0.val; omega
  · exact h1

/-- `s1c` at row 400t + 200 + x0 (x0 below 200), column x1: the second block's payload at (x0, x1). -/
private theorem s1c_hi (c : Dev nD) (t : Fin cfg0.N) (J : S10000x64.Idx) (x0 : Fin 200) (x1 : Fin 64)
    (h0 : (J 0).val = 400 * t.val + 200 + x0.val) (h1 : (J 1).val = x1.val) :
    s1c m c J = k0_pay2 (k0_pay6 (adjHi m c t) (s0c m c) (w1All m c t) (b1Row m c t)) (ValueIdx.ix2 x0 x1) := by
  have hx0 := x0.isLt
  have hr : rowPt J = t := Fin.ext (by show (J 0).val / 400 = t.val; omega)
  have hm : ¬ (J 0).val % 400 < 200 := by omega
  unfold s1c
  rw [dif_neg hm, hr]
  refine congrArg _ ?_
  refine congrArg₂ ValueIdx.ix2 (Fin.ext ?_) (Fin.ext ?_)
  · show (J 0).val % 400 - 200 = x0.val; omega
  · exact h1

/-- Each piece's payload is `s1c` at the piece's rows. -/
private theorem pay_lo_eq (c : Dev nD) (t : Fin cfg0.N) (h : cond0_1 (grid0.coords t)) (inb) (x : S200x64.Idx) :
    k0_pay5 (adjLo m c t) (s0c m c) (w1All m c t) (b1Row m c t) x
      = s1c m c ((Rect.unit (s := S10000x64) (k0_off1 (grid0.coords t) 0#32) S200x64.size inb).emb x) := by
  obtain ⟨⟨e0, e1⟩, -⟩ := off_facts t h
  obtain ⟨x0, x1, rfl⟩ : ∃ (x0 : Fin 200) (x1 : Fin 64), x = ValueIdx.ix2 x0 x1 := ⟨x 0, x 1, ValueIdx.eq_ix2 x⟩
  refine (s1c_lo m c t _ x0 x1 ?_ ?_).symm
  · rw [emb_val0, e0]
  · rw [emb_val1, e1]; omega
private theorem pay_hi_eq (c : Dev nD) (t : Fin cfg0.N) (h : cond0_1 (grid0.coords t)) (inb) (x : S200x64.Idx) :
    k0_pay2 (k0_pay6 (adjHi m c t) (s0c m c) (w1All m c t) (b1Row m c t)) x
      = s1c m c ((Rect.unit (s := S10000x64) (k0_off1 (grid0.coords t) 200#32) S200x64.size inb).emb x) := by
  obtain ⟨-, e0, e1⟩ := off_facts t h
  obtain ⟨x0, x1, rfl⟩ : ∃ (x0 : Fin 200) (x1 : Fin 64), x = ValueIdx.ix2 x0 x1 := ⟨x 0, x 1, ValueIdx.eq_ix2 x⟩
  refine (s1c_hi m c t _ x0 x1 ?_ ?_).symm
  · rw [emb_val0, e0]
  · rw [emb_val1, e1]; omega

/-- The two pieces a point t of phase 0 stores into the second scratch (last store first), computed from the
    first scratch's contents `s0`. -/
def pieces1 (c : Dev nD) (t : Fin cfg0.N) (h : cond0_1 (grid0.coords t)) (s0 : Vec F S10000x128 .f32) :
    List (View.Piece (Elt F) S10000x64 .f32) :=
  [⟨Rect.unit (s := S10000x64) (k0_off1 (grid0.coords t) 200#32) S200x64.size (k0_off1_inb (grid0.coords t) h 1),
      k0_pay2 (k0_pay6 (adjHi m c t) s0 (w1All m c t) (b1Row m c t))⟩,
   ⟨Rect.unit (s := S10000x64) (k0_off1 (grid0.coords t) 0#32) S200x64.size (k0_off1_inb (grid0.coords t) h 0),
      k0_pay5 (adjLo m c t) s0 (w1All m c t) (b1Row m c t)⟩]

/-- One point of phase 0 extends the agreement by its 400 rows. -/
theorem agree_step (c : Dev nD) (t : Fin cfg0.N) (h : cond0_1 (grid0.coords t))
    (v : View sig .tc .vmem S10000x64 .f32) (f : v.ty.Contents (Elt F))
    (hX : Agree m c t.val (v.read (Elt F) f)) :
    Agree m c (t.val + 1) (v.read (Elt F) (v.writes (Elt F) f (pieces1 m c t h (s0c m c)))) := by
  intro j hj
  unfold pieces1
  by_cases hlt : (j 0).val < 400 * t.val
  · -- a row below 400t: no piece covers it, the old contents stay
    rw [View.read_writes_apply_of_forall_not_mem v f j _ ?_]
    · exact hX j hlt
    · intro p hp hm
      rcases List.mem_cons.mp hp with rfl | hp
      · have := (mem_hi_iff t h (k0_off1_inb (grid0.coords t) h 1) j).mp hm; omega
      · rcases List.mem_cons.mp hp with rfl | hp
        · have := (mem_lo_iff t h (k0_off1_inb (grid0.coords t) h 0) j).mp hm; omega
        · exact absurd hp List.not_mem_nil
  · -- a row of point t: one of the two pieces covers it, and both pieces are `s1c` there
    refine View.read_writes_apply_of_pieces v f (s1c m c) _ ?_ j ?_
    · intro p hp x
      rcases List.mem_cons.mp hp with rfl | hp
      · exact pay_hi_eq m c t h (k0_off1_inb (grid0.coords t) h 1) x
      · rcases List.mem_cons.mp hp with rfl | hp
        · exact pay_lo_eq m c t h (k0_off1_inb (grid0.coords t) h 0) x
        · exact absurd hp List.not_mem_nil
    · by_cases hlo : (j 0).val < 400 * t.val + 200
      · exact ⟨_, List.mem_cons_of_mem _ List.mem_cons_self, (mem_lo_iff t h (k0_off1_inb (grid0.coords t) h 0) j).mpr ⟨by omega, hlo⟩⟩
      · exact ⟨_, List.mem_cons_self, (mem_hi_iff t h (k0_off1_inb (grid0.coords t) h 1) j).mpr ⟨by omega, by omega⟩⟩

/-- `s1c` agrees with itself on any number of rows. -/
theorem agree_self (c : Dev nD) (n : ℕ) : Agree m c n (s1c m c) := fun _ _ => rfl

/-- Once all 25 points of phase 0 have run, agreement is equality. -/
theorem agree_all (c : Dev nD) (n : ℕ) (hn : 25 ≤ n) (X : Vec F S10000x64 .f32) (hX : Agree m c n X) : X = s1c m c := by
  funext j
  have hj := ValueIdx.idx2_lt0 j
  exact hX j (by omega)

end Cert.KernelIdeal.Hand

end
-- ==== Proof.KBody.lean ====
/-
  The body obligation at every point of the grid.  At the first point the run of the first case fills the first
  scratch with s0 and writes rows 0..399 of the second; at a later point of phase 0 the run of the second case
  writes the point's 400 rows, the rows written before staying as they were; at a point of phase 1 the second
  scratch holds every row of `s1c` and the run of the third case leaves the output block.  The input windows'
  buffers come back as found; the output window's buffer is handed back untouched in phase 0.
-/
import proofs.«114203_g75668733821266_cont_9to1_m_1126_15_alg».proof.Proof.KRunA
import proofs.«114203_g75668733821266_cont_9to1_m_1126_15_alg».proof.Proof.KDefs
import proofs.«114203_g75668733821266_cont_9to1_m_1126_15_alg».proof.Proof.KAgree

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One whole-buffer store into the first scratch reads back as its payload. -/
theorem s0_read (v : View sig .tc .vmem S10000x128 .f32) (f : v.ty.Contents (Elt F)) (w : Vec F S10000x128 .f32) :
    v.read (Elt F) (v.writes (Elt F) f [⟨Rect.unit (s := S10000x128) ![0, 0] S10000x128.size inb_S10000x128_S10000x128_0_0, w⟩]) = w := by
  rw [View.read_writes_eq_canon _ _ _ (fun y => ⟨_, List.mem_singleton_self _, View.mem_set_unit_zero hz2 inb_S10000x128_S10000x128_0_0 y⟩),
    View.canon_unit_zero hz2]

/-- The two half blocks a point of phase 1 stores tile the output block. -/
theorem cover7 (w4 w3 : Vec F S200x64 .f32) (y : S400x64.Idx) :
    ∃ pc ∈ ([⟨Rect.unit (s := S400x64) ![200, 0] S200x64.size inb_S400x64_S200x64_200_0, w4⟩,
        ⟨Rect.unit (s := S400x64) ![0, 0] S200x64.size inb_S400x64_S200x64_0_0, w3⟩] : List (View.Piece (Elt F) S400x64 .f32)), y ∈ pc.1.set :=
  View.cover_of_tiledL (s := S400x64) _ (![200, 64] : Fin 2 → ℕ) (by sl_kernel_rfl) y

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [Phi_succ, Phi_castSucc]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  have hN : t.val < 50 := lt_of_lt_of_eq t.isLt (show cfg0.N = 50 from N_0)
  by_cases h1 : t.val < 25
  · have hc1 : cond0_1 (grid0.coords t) := (hcond0_1 t).mpr h1
    have hc2 : ¬cond0_2 (grid0.coords t) := fun h => by have := (hcond0_2 t).mp h; omega
    rw [Dat.leavesExact_idle (dats m 0 c) 7 t (idleAt0_7 t hc2) (noFlush0_7 t hc2)]
    by_cases hz : t.val = 0
    · -- the first point
      obtain rfl : t = t0 := Fin.ext hz
      have hc0 : cond0_0 (grid0.coords t0) := (hcond0_0 t0).mpr rfl
      rw [show PhiS m c t0.val = PhiS m c 0 from rfl, PhiS_zero_eq, PhiS_succ]
      iintro ⟨⟨⟨%d0, HS0⟩, ⟨%d1, HS1⟩⟩, Ho, ⟨%e0, H0⟩, ⟨%e1, H1⟩, ⟨%e2, H2⟩, ⟨%e3, H3⟩, ⟨%e4, H4⟩, ⟨%e5, H5⟩, ⟨%e6, H6⟩, ⟨%e7, H7⟩⟩
      iapply ((kernelRun0_A c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scM0_0 (Memref.isWhole_whole _) scM0_1 (Memref.isWhole_whole _) hc0 hc1 hc2 (adjLo m c t0) (adjHi m c t0) (xAll m c t0) (w0All m c t0) (b0Row m c t0) (w1All m c t0) (b1Row m c t0)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, ⟨%g0, HS0⟩, ⟨%g1, HS1⟩⟩
      isplitl [HS0 HS1]
      · isplitl [HS0]
        · unfold owns; iexists _; isplitr
          swap; · iexact HS0
          ipureintro; rw [LS0_A_eq]; exact s0_read _ _ _
        · iexists (scM0_1.view.read (Elt F) (scM0_1.view.writes (Elt F) g1 (kernelRun0_A c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scM0_0 (Memref.isWhole_whole _) scM0_1 (Memref.isWhole_whole _) hc0 hc1 hc2 (adjLo m c t0) (adjHi m c t0) (xAll m c t0) (w0All m c t0) (b0Row m c t0) (w1All m c t0) (b1Row m c t0)).2.1))
          isplitr
          · ipureintro; rw [LS1_A_eq]
            exact agree_step m c t0 hc1 scM0_1.view g1 (fun j hj => absurd hj (by show ¬ (_ < 400 * t0.val); simp [t0]))
          · unfold owns; iexists _; isplitr
            swap; · iexact HS1
            ipureintro; rfl
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · -- a later point of phase 0
      have hc0 : ¬cond0_0 (grid0.coords t) := fun h => hz ((hcond0_0 t).mp h)
      rw [PhiS_pos m c _ hz, PhiS_succ]
      iintro ⟨⟨HS0, ⟨%X, %hX, HS1⟩⟩, Ho, ⟨%e0, H0⟩, ⟨%e1, H1⟩, ⟨%e2, H2⟩, ⟨%e3, H3⟩, ⟨%e4, H4⟩, ⟨%e5, H5⟩, ⟨%e6, H6⟩, ⟨%e7, H7⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 hc2 (adjLo m c t) (adjHi m c t) (xAll m c t) (w0All m c t) (b0Row m c t) (w1All m c t) (b1Row m c t) (s0c m c) X).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1]
      · isplitl [HS0]; · iexact HS0
        iexists (scM0_1.view.read (Elt F) (scM0_1.view.writes (Elt F) ((Memref.isWhole_whole cc0_scratch1 : scM0_1.IsWhole).unread X) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 hc2 (adjLo m c t) (adjHi m c t) (xAll m c t) (w0All m c t) (b0Row m c t) (w1All m c t) (b1Row m c t) (s0c m c) X).1))
        isplitr
        · ipureintro; rw [LS1_B_eq]
          exact agree_step m c t hc1 scM0_1.view _ (by rw [Memref.IsWhole.read_unread]; exact hX)
        · unfold owns; iexists _; isplitr
          swap; · iexact HS1
          ipureintro; rfl
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · -- a point of phase 1
    have h25 : 25 ≤ t.val := by omega
    have hz : t.val ≠ 0 := by omega
    have hc0 : ¬cond0_0 (grid0.coords t) := fun h => hz ((hcond0_0 t).mp h)
    have hc1 : ¬cond0_1 (grid0.coords t) := fun h => h1 ((hcond0_1 t).mp h)
    have hc2 : cond0_2 (grid0.coords t) := (hcond0_2 t).mpr h25
    rw [show (dats m 0 c).leavesExact 7 t = owns (c : Thread nD τ) (ms0_7 t) fullShare ((dats m 0 c).after 7 t) from by
      unfold Dat.leavesExact; rw [liveAt0_7 t hc2], after0_7]
    rw [PhiS_pos m c _ hz, PhiS_succ]
    iintro ⟨⟨HS0, ⟨%X, %hX, HS1⟩⟩, Ho, ⟨%e0, H0⟩, ⟨%e1, H1⟩, ⟨%e2, H2⟩, ⟨%e3, H3⟩, ⟨%e4, H4⟩, ⟨%e5, H5⟩, ⟨%e6, H6⟩, ⟨%e7, H7⟩⟩
    obtain rfl : X = s1c m c := agree_all m c t.val h25 X hX
    iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 hc2 (adjLo m c t) (adjHi m c t) (xAll m c t) (w0All m c t) (b0Row m c t) (w1All m c t) (b1Row m c t) (s0c m c) (s1c m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, ⟨%g7, H7⟩, HS0, HS1⟩
    isplitl [HS0 HS1]
    · isplitl [HS0]; · iexact HS0
      iexists (s1c m c)
      isplitr; · ipureintro; exact agree_self m c _
      iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; rw [L7_C_eq]; unfold out7
    exact View.read_writes_eq_canon _ _ _ (cover7 _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KSplit.lean ====
/-
  The launch side of the kernel's frame.  The adjacency matrix is handed to the region through two input
  windows: its full share is dealt half to each (the two windows only read it); every other array is its one
  window's whole.  Before the first point the invariant is what the launch hands the region of the core's
  scoped buffers — the two scratch buffers at anything —, and after the last it gives them back, their contents
  forgotten.
-/
import proofs.«114203_g75668733821266_cont_9to1_m_1126_15_alg».proof.Proof.KDefs
import proofs.«114203_g75668733821266_cont_9to1_m_1126_15_alg».proof.Proof.LibSharedFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the region is the invariant before the first point. -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 from rfl]
  exact Idealize.SL.BI.Entails.refl _

/-- After the last point the invariant gives the scratch buffers back. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (Pipeline.scopedRest (Ix := Unit) (Name := ℕ) (U := UR sig nD τ) (Lvl := ℕ) (Val := Elt F) spec0 c : sProp 𝕄) = PhiS m c 0 from rfl,
    PhiS_zero_eq, show (dats m 0 c).Φ (Fin.last cfg0.N) = PhiS m c (Fin.last cfg0.N).val from rfl,
    PhiS_pos m c _ (by rw [Fin.val_last]; have : cfg0.N = 50 := N_0; omega)]
  iintro ⟨HS0, ⟨%X, -, HS1⟩⟩
  isplitl [HS0]
  · iexists _; iexact HS0
  · iexists _; iexact HS1

/-- The buffers behind the windows' arrays, each whole at the region-entry contents, make the proof data's arrays:
    the adjacency matrix split between its two windows. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  classical
  have harr : (dats m 0 c).arrays ((dats m 0 c).arrAt · 0)
      = bigSep Finset.univ fun w : Fin 8 => (((c : Thread nD τ).loc (Pipeline.arrRef spec0 w)) ↦{(dats m 0 c).share w} V m c (Pipeline.arrRef spec0 w) : sProp 𝕄) := by
    unfold Dat.arrays
    exact bigSep_congr fun w _ => by rw [(arr_whole0 w).set_eq_univ]; rfl
  rw [harr, bigSep_W0]
  have hL : (Pipeline.arrBufs (Ix := Unit) (Name := ℕ) (U := UR sig nD τ) (Lvl := ℕ) spec0 c (V m c) : sProp 𝕄)
      = iprop((((c : Thread nD τ).loc main_arg1) ↦{fullShare} V m c main_arg1) ∗ (((c : Thread nD τ).loc main_arg0) ↦{fullShare} V m c main_arg0) ∗ (((c : Thread nD τ).loc main_arg2) ↦{fullShare} V m c main_arg2) ∗ (((c : Thread nD τ).loc main_call0_v0) ↦{fullShare} V m c main_call0_v0) ∗ (((c : Thread nD τ).loc main_arg4) ↦{fullShare} V m c main_arg4) ∗ (((c : Thread nD τ).loc main_call0_v1) ↦{fullShare} V m c main_call0_v1) ∗ (((c : Thread nD τ).loc main_v0) ↦{fullShare} V m c main_v0)) := by
    unfold Pipeline.arrBufs
    exact bigSep_eq_bigSepL_of_eq [main_arg1, main_arg0, main_arg2, main_call0_v0, main_arg4, main_call0_v1, main_v0] (by decide) (by decide) _
  rw [hL]
  iintro ⟨Hadj, Hx, Hw0, Hb0, Hw1, Hb1, Hout⟩
  have hsh : ((((c : Thread nD τ).loc main_arg1) ↦{fullShare} V m c main_arg1) : sProp 𝕄)
      ⊢ iprop((((c : Thread nD τ).loc main_arg1) ↦{fullShare.left} V m c main_arg1) ∗ (((c : Thread nD τ).loc main_arg1) ↦{fullShare.right} V m c main_arg1)) :=
    (pointsTo_share (PosShare.mem_left_op_right fullShare)).1
  ihave Hadj2 := hsh $$ Hadj
  icases Hadj2 with ⟨HadjL, HadjR⟩
  isplitl [HadjL]; · iexact HadjL
  isplitl [HadjR]; · iexact HadjR
  isplitl [Hx]; · iexact Hx
  isplitl [Hw0]; · iexact Hw0
  isplitl [Hb0]; · iexact Hb0
  isplitl [Hw1]; · iexact Hw1
  isplitl [Hb1]; · iexact Hb1
  iexact Hout

end Cert.KernelIdeal.Hand

end
-- ==== Proof.KLaunch.lean ====
/-
  The run of the kernel's program and its frame: every weakly fair execution of @main terminates, nothing
  faults, each window's array ends at what the proof data compute and every other unscoped buffer as the region
  found it; in particular the six argument arrays end as launched.
-/
import proofs.«114203_g75668733821266_cont_9to1_m_1126_15_alg».proof.Proof.KBody
import proofs.«114203_g75668733821266_cont_9to1_m_1126_15_alg».proof.Proof.KSplit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The frame run: the body obligation at every point, the adjacency matrix's share split between its two
    windows, the scratch buffers entered at anything and forgotten at the end. -/
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hin := hin m) (hout := hout m)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The run with the result array named: the output window's array after the last point, and the arguments as launched. -/
theorem run_named : θ_run defs (onTc (τ := τ) (main (F := F))) ⟨m, fun _ => 0, ρ⟩ (fun r => ∀ c : Dev nD,
      r.2.mem ((c.tc : Thread nD τ).loc main_v0) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c).1 7,
     ((h c).1 2).trans (((dats m 0 c).arrAt_in 2 rfl _).trans ((A_eq m c 2).trans (V_main_arg0 m c))),
     ((h c).1 0).trans (((dats m 0 c).arrAt_in 0 rfl _).trans ((A_eq m c 0).trans (V_main_arg1 m c))),
     ((h c).1 3).trans (((dats m 0 c).arrAt_in 3 rfl _).trans ((A_eq m c 3).trans (V_main_arg2 m c))),
     ((h c).2 main_arg3 (Pipeline.mem_restRefs_of main_arg3 (by decide) (by decide))).trans (V_main_arg3 m c),
     ((h c).1 5).trans (((dats m 0 c).arrAt_in 5 rfl _).trans ((A_eq m c 5).trans (V_main_arg4 m c))),
     ((h c).2 main_arg5 (Pipeline.mem_restRefs_of main_arg5 (by decide) (by decide))).trans (V_main_arg5 m c)⟩) (run_main m ρ)

end Cert.KernelIdeal.Hand

end
-- ==== Proof.Spec.lean ====
/-
  The two-layer graph convolution with a row-wise log-softmax, as ONE function of the argument arrays over the
  extended reals, index by index.  With relu a = max a 0:
    sup0 = relu(x) · W0 + b0                    (10000 × 128)
    sup1 = relu(adj · sup0) · W1 + b1           (10000 × 64)
    act2 = relu(adj · sup1)                     (10000 × 64)
    lsm y = (y − rowmax y) − log Σ_c exp(y − rowmax y), row by row.
  Each result row depends on ONE row of the adjacency matrix, so the row-level functions below are stated of a
  row `arow` of it: a row block of a product is the same sums as the corresponding rows of the whole product,
  and no algebraic law beyond reindexing joins a program that works block by block to one that works whole.
-/
import Idealize.ShloMosaic.PureOps.Ideal
import Idealize.ShloMosaic.PureOps.Ideal.Laws
import Idealize.ShloMosaic.Lib.ValueIdx

noncomputable section

namespace Cert.GcnSpec

open Idealize.ShloMosaic Idealize.ShloMosaic.ValueIdx

/-- A rank-2 array of extended reals. -/
abbrev A2 (n0 n1 : Nat) : Type := (⟨2, ![n0, n1]⟩ : Shape).Idx → EReal
/-- A rank-1 array of extended reals. -/
abbrev A1 (n : Nat) : Type := (⟨1, ![n]⟩ : Shape).Idx → EReal

/-- max(a, 0), the zero being the f32 word 0x00000000 read at the extended reals. -/
def relu (a : EReal) : EReal := max a (Ideal.ofBits .f32 0x00000000#32)

/-- relu(x) · W0 + b0. -/
def sup0 (x : A2 10000 128) (w0 : A2 128 128) (b0 : A1 128) : A2 10000 128 := fun i =>
  (∑ k : Fin 128, relu (x (ix2 (i 0) k)) * w0 (ix2 k (i 1))) + b0 (ix1 (i 1))

/-- One row of relu(adj · s0) · W1 + b1, from that row `arow` of adj. -/
def rowSup1 (arow : Fin 10000 → EReal) (s0 : A2 10000 128) (w1 : A2 128 64) (b1 : A1 64) (cc : Fin 64) : EReal :=
  (∑ k : Fin 128, relu (∑ l : Fin 10000, arow l * s0 (ix2 l k)) * w1 (ix2 k cc)) + b1 (ix1 cc)

/-- relu(adj · s0) · W1 + b1. -/
def sup1 (adj : A2 10000 10000) (s0 : A2 10000 128) (w1 : A2 128 64) (b1 : A1 64) : A2 10000 64 := fun i =>
  rowSup1 (fun l => adj (ix2 (i 0) l)) s0 w1 b1 (i 1)

/-- One row of relu(adj · s1), from that row of adj. -/
def rowAct2 (arow : Fin 10000 → EReal) (s1 : A2 10000 64) (cc : Fin 64) : EReal :=
  relu (∑ l : Fin 10000, arow l * s1 (ix2 l cc))

/-- The maximum of a row of 64 entries, folded from −∞ (the f32 word 0xFF800000). -/
def rowMax (y : Fin 64 → EReal) : EReal :=
  (Finset.univ : Finset (Fin 64)).fold max (Ideal.ofBits .f32 0xFF800000#32) y

/-- The log-softmax of one row, in the shifted form both programs compute. -/
def rowLsm (y : Fin 64 → EReal) (cc : Fin 64) : EReal :=
  (y cc - rowMax y) - Ideal.log (∑ c' : Fin 64, Ideal.exp (y c' - rowMax y))

/-- The whole network: row r of the result from row r of adj. -/
def out (x : A2 10000 128) (adj : A2 10000 10000) (w0 : A2 128 128) (b0 : A1 128) (w1 : A2 128 64) (b1 : A1 64) :
    A2 10000 64 := fun i =>
  rowLsm (rowAct2 (fun l => adj (ix2 (i 0) l)) (sup1 adj (sup0 x w0 b0) w1 b1)) (i 1)

end Cert.GcnSpec

end
-- ==== Proof.KValueS.lean ====
/-
  Each window's block, read at an index, is its array read at the block's offset plus the index.  The two
  windows on the adjacency matrix take blocks of 200 rows: at point t the first holds rows
  400·(t mod 25) .. +199, the second the next 200.  The other five input windows take their whole arrays; the
  two bias windows take the 1×n reshapes of the bias vectors, which hold the vectors' entries.
-/
import proofs.«114203_g75668733821266_cont_9to1_m_1126_15_alg».proof.Proof.KDefs
import proofs.«114203_g75668733821266_cont_9to1_m_1126_15_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Val

open Cert.KernelIdeal Cert.KernelIdeal.Gen Cert.GcnSpec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The argument arrays as the launch memory holds them. -/
abbrev aX (c : Dev nD) : A2 10000 128 := m ((c.tc : Thread nD τ).loc main_arg0)
abbrev aAdj (c : Dev nD) : A2 10000 10000 := m ((c.tc : Thread nD τ).loc main_arg1)
abbrev aW0 (c : Dev nD) : A2 128 128 := m ((c.tc : Thread nD τ).loc main_arg2)
abbrev aB0 (c : Dev nD) : A1 128 := m ((c.tc : Thread nD τ).loc main_arg3)
abbrev aW1 (c : Dev nD) : A2 128 64 := m ((c.tc : Thread nD τ).loc main_arg4)
abbrev aB1 (c : Dev nD) : A1 64 := m ((c.tc : Thread nD τ).loc main_arg5)

/-- The two adjacency windows' block indices, decided over the grid: block 2·(t mod 25) of 200 rows, and the next. -/
theorem adj_index_facts : ∀ t : Fin cfg0.N, win0_0.index t (0 : Fin 2) = 2 * (t.val % 25) ∧ win0_0.index t (1 : Fin 2) = 0
    ∧ win0_1.index t (0 : Fin 2) = 2 * (t.val % 25) + 1 ∧ win0_1.index t (1 : Fin 2) = 0 :=
  (by decide +kernel : ∀ t : Fin grid0.N, _)

/-- The whole-array windows' block indices are zero at every point. -/
theorem whole_index_facts : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The first adjacency window's block at point t is rows 400·(t mod 25) .. +199 of the matrix. -/
theorem adjLo_apply (c : Dev nD) (t : Fin cfg0.N) (r : Fin 200) (l : Fin 10000) (hr : 400 * (t.val % 25) + r.val < 10000) :
    Hand.adjLo m c t (ix2 r l) = aAdj m c (ix2 (⟨400 * (t.val % 25) + r.val, hr⟩ : Fin 10000) l) := by
  obtain ⟨e0, e1, -, -⟩ := adj_index_facts t
  show Hand.V m c main_arg1 (((cfg0.win 0).blk t).view.emb (ix2 r l)) = _
  rw [Hand.V_main_arg1]
  show m ((c.tc : Thread nD τ).loc main_arg1) (((cfg0.win 0).blk t).view.emb (ix2 r l))
    = m ((c.tc : Thread nD τ).loc main_arg1) (ix2 (⟨400 * (t.val % 25) + r.val, hr⟩ : Fin 10000) l)
  refine congrArg _ (funext fun a => Fin.ext ?_)
  match a with
  | ⟨0, _⟩ => show win0_0.index t (0 : Fin 2) * 200 + 1 * r.val = 400 * (t.val % 25) + r.val; omega
  | ⟨1, _⟩ => show win0_0.index t (1 : Fin 2) * 10000 + 1 * l.val = l.val; omega

/-- The second window's block is the next 200 rows. -/
theorem adjHi_apply (c : Dev nD) (t : Fin cfg0.N) (r : Fin 200) (l : Fin 10000) (hr : 400 * (t.val % 25) + 200 + r.val < 10000) :
    Hand.adjHi m c t (ix2 r l) = aAdj m c (ix2 (⟨400 * (t.val % 25) + 200 + r.val, hr⟩ : Fin 10000) l) := by
  obtain ⟨-, -, e2, e3⟩ := adj_index_facts t
  show Hand.V m c main_arg1 (((cfg0.win 1).blk t).view.emb (ix2 r l)) = _
  rw [Hand.V_main_arg1]
  show m ((c.tc : Thread nD τ).loc main_arg1) (((cfg0.win 1).blk t).view.emb (ix2 r l))
    = m ((c.tc : Thread nD τ).loc main_arg1) (ix2 (⟨400 * (t.val % 25) + 200 + r.val, hr⟩ : Fin 10000) l)
  refine congrArg _ (funext fun a => Fin.ext ?_)
  match a with
  | ⟨0, _⟩ => show win0_1.index t (0 : Fin 2) * 200 + 1 * r.val = 400 * (t.val % 25) + 200 + r.val; omega
  | ⟨1, _⟩ => show win0_1.index t (1 : Fin 2) * 10000 + 1 * l.val = l.val; omega

/-- The whole-array windows hold their arrays. -/
theorem xAll_eq (c : Dev nD) (t : Fin cfg0.N) : Hand.xAll m c t = aX m c := by
  obtain ⟨e0, e1, -⟩ := whole_index_facts t
  funext j
  show Hand.V m c main_arg0 (((cfg0.win 2).blk t).view.emb j) = _
  rw [Hand.V_main_arg0]
  show m ((c.tc : Thread nD τ).loc main_arg0) (((cfg0.win 2).blk t).view.emb j) = m ((c.tc : Thread nD τ).loc main_arg0) j
  refine congrArg _ (funext fun a => Fin.ext ?_)
  match a with
  | ⟨0, _⟩ => show win0_2.index t (0 : Fin 2) * 10000 + 1 * (j 0).val = (j 0).val; omega
  | ⟨1, _⟩ => show win0_2.index t (1 : Fin 2) * 128 + 1 * (j 1).val = (j 1).val; omega
theorem w0All_eq (c : Dev nD) (t : Fin cfg0.N) : Hand.w0All m c t = aW0 m c := by
  obtain ⟨-, -, e0, e1, -⟩ := whole_index_facts t
  funext j
  show Hand.V m c main_arg2 (((cfg0.win 3).blk t).view.emb j) = _
  rw [Hand.V_main_arg2]
  show m ((c.tc : Thread nD τ).loc main_arg2) (((cfg0.win 3).blk t).view.emb j) = m ((c.tc : Thread nD τ).loc main_arg2) j
  refine congrArg _ (funext fun a => Fin.ext ?_)
  match a with
  | ⟨0, _⟩ => show win0_3.index t (0 : Fin 2) * 128 + 1 * (j 0).val = (j 0).val; omega
  | ⟨1, _⟩ => show win0_3.index t (1 : Fin 2) * 128 + 1 * (j 1).val = (j 1).val; omega
theorem w1All_eq (c : Dev nD) (t : Fin cfg0.N) : Hand.w1All m c t = aW1 m c := by
  obtain ⟨-, -, -, -, -, -, e0, e1, -⟩ := whole_index_facts t
  funext j
  show Hand.V m c main_arg4 (((cfg0.win 5).blk t).view.emb j) = _
  rw [Hand.V_main_arg4]
  show m ((c.tc : Thread nD τ).loc main_arg4) (((cfg0.win 5).blk t).view.emb j) = m ((c.tc : Thread nD τ).loc main_arg4) j
  refine congrArg _ (funext fun a => Fin.ext ?_)
  match a with
  | ⟨0, _⟩ => show win0_5.index t (0 : Fin 2) * 128 + 1 * (j 0).val = (j 0).val; omega
  | ⟨1, _⟩ => show win0_5.index t (1 : Fin 2) * 64 + 1 * (j 1).val = (j 1).val; omega

/-- The region finds the first bias window's array at the 1×128 reshape of the first bias vector. -/
theorem V_call0_v0 (c : Dev nD) :
    (Hand.V m c main_call0_v0 : S1x128.Idx → EReal)
      = shapeCast S1x128 (m ((c.tc : Thread nD τ).loc main_arg3) : S128.Idx → EReal) shapeCasts_S128_S1x128 := by
  dsimp only [Hand.V, hostOps0]
  simp only [List.flatten_cons, List.flatten_nil, List.append_nil]
  after_results
  rfl

/-- And the second's at the 1×64 reshape of the second bias vector. -/
theorem V_call0_v1 (c : Dev nD) :
    (Hand.V m c main_call0_v1 : S1x64.Idx → EReal)
      = shapeCast S1x64 (m ((c.tc : Thread nD τ).loc main_arg5) : S64.Idx → EReal) shapeCasts_S64_S1x64 := by
  dsimp only [Hand.V, hostOps0]
  simp only [List.flatten_cons, List.flatten_nil, List.append_nil]
  after_results
  rfl

/-- The bias windows hold the bias vectors' entries in their one row. -/
theorem b0Row_apply (c : Dev nD) (t : Fin cfg0.N) (k : Fin 128) : Hand.b0Row m c t (ix2 (0 : Fin 1) k) = aB0 m c (ix1 k) := by
  obtain ⟨-, -, -, -, e0, e1, -⟩ := whole_index_facts t
  have hi : ((cfg0.win 4).blk t).view.emb (ix2 (0 : Fin 1) k) = (ix2 (0 : Fin 1) k : S1x128.Idx) :=
    funext fun a => Fin.ext (by
      match a with
      | ⟨0, _⟩ => show win0_4.index t (0 : Fin 2) * 1 + 1 * 0 = 0; omega
      | ⟨1, _⟩ => show win0_4.index t (1 : Fin 2) * 128 + 1 * k.val = k.val; omega)
  show (Hand.V m c main_call0_v0 : S1x128.Idx → EReal) (((cfg0.win 4).blk t).view.emb (ix2 (0 : Fin 1) k)) = _
  rw [V_call0_v0]
  refine (congrArg (shapeCast S1x128 (m ((c.tc : Thread nD τ).loc main_arg3) : S128.Idx → EReal) shapeCasts_S128_S1x128) hi).trans ?_
  exact shapeCast_a_1a_apply _ _ (0 : Fin 1) k
theorem b1Row_apply (c : Dev nD) (t : Fin cfg0.N) (k : Fin 64) : Hand.b1Row m c t (ix2 (0 : Fin 1) k) = aB1 m c (ix1 k) := by
  obtain ⟨-, -, -, -, -, -, -, -, e0, e1⟩ := whole_index_facts t
  have hi : ((cfg0.win 6).blk t).view.emb (ix2 (0 : Fin 1) k) = (ix2 (0 : Fin 1) k : S1x64.Idx) :=
    funext fun a => Fin.ext (by
      match a with
      | ⟨0, _⟩ => show win0_6.index t (0 : Fin 2) * 1 + 1 * 0 = 0; omega
      | ⟨1, _⟩ => show win0_6.index t (1 : Fin 2) * 64 + 1 * k.val = k.val; omega)
  show (Hand.V m c main_call0_v1 : S1x64.Idx → EReal) (((cfg0.win 6).blk t).view.emb (ix2 (0 : Fin 1) k)) = _
  rw [V_call0_v1]
  refine (congrArg (shapeCast S1x64 (m ((c.tc : Thread nD τ).loc main_arg5) : S64.Idx → EReal) shapeCasts_S64_S1x64) hi).trans ?_
  exact shapeCast_a_1a_apply _ _ (0 : Fin 1) k

end Cert.KernelIdeal.Val

end
-- ==== Proof.KPayloads.lean ====
/-
  The kernel's pure payloads read at an index, at the ideal instance: floats are extended reals and every operation is
  exact, so each payload is the specification's row function of the payload's operands.

  A product of an m×k by a k×n matrix into the zero splat is, at (a, b), the sum over the contracted coordinate of the
  products of the entries; a maximum against the zero splat is relu; a 1×n bias block broadcast over the rows reads its
  one row; a row maximum is the fold of max from −∞ over the row, a row sum the sum over the row; the [a] → [a,1] shape
  cast and the [a,1] → [a,b] broadcast read the row's entry at every column; exp, log and subtraction are pointwise.
-/
import proofs.«114203_g75668733821266_cont_9to1_m_1126_15_alg».proof.Proof.Gen.KernelIdeal.Skeleton
import proofs.«114203_g75668733821266_cont_9to1_m_1126_15_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Cert.GcnSpec Idealize.ShloMosaic Idealize.ShloMosaic.ValueIdx

/-- A 1×n block read as a rank-1 array. -/
def row1 {n : Nat} (b : (⟨2, ![1, n]⟩ : Shape).Idx → EReal) : A1 n := fun j => b (ix2 (0 : Fin 1) (j 0))

/-! ## The plain product m×k by k×n read at an index -/

private theorem plain_lhs_0 {m k n : Nat} (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl
private theorem plain_lhs_1 {m k n : Nat} (i : (⟨2, ![m, n]⟩ : Shape).Idx) (q : (DotDims.plain m k n).contr.Idx) :
    ((DotDims.plain m k n).lhsIdx i q 1).val = (q ⟨0, Nat.one_pos⟩).val :=
  (DotDims.plain m k n).lhsIdx_val_of_single rfl i q
private theorem plain_rhs_0 {m k n : Nat} (i : (⟨2, ![m, n]⟩ : Shape).Idx) (q : (DotDims.plain m k n).contr.Idx) :
    ((DotDims.plain m k n).rhsIdx i q 0).val = (q ⟨0, Nat.one_pos⟩).val :=
  (DotDims.plain m k n).rhsIdx_val_of_single rfl i q
private theorem plain_rhs_1 {m k n : Nat} (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- The product into the zero splat, at (a, b): the sum over the contracted coordinate. -/
private theorem mm_apply {m k n : Nat} (A : FVec Ideal ⟨2, ![m, k]⟩ .f32) (B : FVec Ideal ⟨2, ![k, n]⟩ .f32)
    (a : Fin m) (b : Fin n) :
    matmul (F := Ideal) (DotDims.plain m k n) none A B (constant (F := Ideal) ⟨2, ![m, n]⟩ .f32 0x00000000#32) (ix2 a b)
      = ∑ c : Fin k, A (ix2 a c) * B (ix2 c b) := by
  show FloatOps.matmul (DotDims.plain m k n) none A B (constant (F := Ideal) ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact plain_lhs_0 _ _
      | ⟨1, _⟩ => exact (plain_lhs_1 _ _).trans hc)
  have er : (DotDims.plain m k n).rhsIdx (ix2 a b) ((contrEquiv1 (DotDims.plain m k n) k rfl rfl).symm c) = ix2 c b :=
    funext fun ax => Fin.ext (by
      match ax with
      | ⟨0, _⟩ => exact (plain_rhs_0 _ _).trans hc
      | ⟨1, _⟩ => exact plain_rhs_1 _ _)
  rw [el, er]

/-- The kernel's four dimension records are the plain one at their sizes. -/
private theorem dotA_eq : dot_S10000x128_S128x128_S10000x128_1_0_0_1_n_n = DotDims.plain 10000 128 128 := rfl
private theorem dotB_eq : dot_S200x10000_S10000x128_S200x128_1_0_0_1_n_n = DotDims.plain 200 10000 128 := rfl
private theorem dotC_eq : dot_S200x128_S128x64_S200x64_1_0_0_1_n_n = DotDims.plain 200 128 64 := rfl
private theorem dotD_eq : dot_S200x10000_S10000x64_S200x64_1_0_0_1_n_n = DotDims.plain 200 10000 64 := rfl

/-! ## relu, and the keepdims column forms -/

/-- A maximum against the zero splat is relu, element by element. -/
private theorem relu_apply {s : Shape} (v : FVec Ideal s .f32) (i : s.Idx) :
    maximumf v (broadcast s (Scalar.ofBits (F := Ideal) .f32 0x00000000#32)) i = relu (v i) := rfl

/-- An [a] array cast to [a, 1] reads, at (i, u), the operand at i. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A row's maximum and sum -/

/-- The maximum over axis 1, at row r: the fold of max from the accumulator's value over the row. -/
private theorem rowmax_apply {m n : Nat} (v : FVec Ideal ⟨2, ![m, n]⟩ .f32)
    (h : (⟨2, ![m, n]⟩ : Shape).Reduces [1] ⟨1, ![m]⟩) (hφ : FKind.Formats .f32)
    (hacc : (0xFF800000#32 : BitVec 32) = FKind.maximumf.neutral .f32 hφ) (r : Fin m) :
    multiReduction (F := Ideal) .maximumf [1] ⟨1, ![m]⟩ v 0xFF800000#32 h hφ hacc (ix1 r)
      = (Finset.univ : Finset (Fin n)).fold max (Ideal.ofBits .f32 0xFF800000#32) (fun c => v (ix2 r c)) := by
  refine (Ideal.multiReduction_maximumf_single v _ h hφ hacc (ix1 r)).trans ?_
  have e : (v ∘ h.lift (ix1 r)) = fun c : Fin n => v (ix2 r c) :=
    funext fun c => congrArg v (funext fun ax => Fin.ext (match ax with | ⟨0, _⟩ => rfl | ⟨1, _⟩ => rfl))
  exact congrArg (fun f : Fin n → EReal => (Finset.univ : Finset (Fin n)).fold max (Ideal.ofBits .f32 0xFF800000#32) f) e

/-- The sum over axis 1, at row r: the sum over the row. -/
private theorem rowsum_apply {m n : Nat} (v : FVec Ideal ⟨2, ![m, n]⟩ .f32)
    (h : (⟨2, ![m, n]⟩ : Shape).Reduces [1] ⟨1, ![m]⟩) (hφ : FKind.Formats .f32)
    (hacc : (0x00000000#32 : BitVec 32) = FKind.add.neutral .f32 hφ) (r : Fin m) :
    multiReduction (F := Ideal) .add [1] ⟨1, ![m]⟩ v 0x00000000#32 h hφ hacc (ix1 r) = ∑ c : Fin n, v (ix2 r c) := by
  refine (Ideal.multiReduction_add_single v _ h hφ hacc (ix1 r)).trans ?_
  exact Finset.sum_congr rfl fun c _ =>
    congrArg v (funext fun ax => Fin.ext (match ax with | ⟨0, _⟩ => rfl | ⟨1, _⟩ => rfl))

/-! ## The first layer's pre-activation -/

theorem pay1_eq (x2 : Vec Ideal S10000x128 .f32) (x3 : Vec Ideal S128x128 .f32) (x4 : Vec Ideal S1x128 .f32) :
    k0_pay1 (F := Ideal) x2 x3 x4 = sup0 x2 x3 (row1 x4) := by
  funext i
  obtain ⟨p, q, rfl⟩ : ∃ (p : Fin 10000) (q : Fin 128), i = ix2 p q := ⟨i 0, i 1, eq_ix2 i⟩
  unfold k0_pay1
  rw [shapeCast_self]
  show matmul (F := Ideal) dot_S10000x128_S128x128_S10000x128_1_0_0_1_n_n none
        (maximumf x2 (broadcast S10000x128 (Scalar.ofBits (F := Ideal) .f32 0x00000000#32))) x3
        (constant (F := Ideal) S10000x128 .f32 0x00000000#32) (ix2 p q)
      + broadcastTo S10000x128 (shapeCast S1x128 x4 shapeCasts_S1x128_S1x128) broadcasts_S1x128_S10000x128 (ix2 p q)
    = (∑ k : Fin 128, relu (x2 (ix2 p k)) * x3 (ix2 k q)) + x4 (ix2 (0 : Fin 1) q)
  rw [dotA_eq, shapeCast_self]
  exact congrArg₂ (· + ·) (mm_apply _ x3 p q) (broadcastTo_1b_ab_apply x4 _ p q)

/-! ## The second layer's pre-activation on a row block -/

/-- relu(a · s0) · w1 + b on a 200-row block a, before the store's identity shape cast. -/
private def sup1Block (xa : FVec Ideal S200x10000 .f32) (s0 : FVec Ideal S10000x128 .f32) (w1 : FVec Ideal S128x64 .f32)
    (b : FVec Ideal S1x64 .f32) : FVec Ideal S200x64 .f32 :=
  addf
    (matmul (F := Ideal) dot_S200x128_S128x64_S200x64_1_0_0_1_n_n none
      (maximumf
        (matmul (F := Ideal) dot_S200x10000_S10000x128_S200x128_1_0_0_1_n_n none xa s0 (constant (F := Ideal) S200x128 .f32 0x00000000#32))
        (broadcast S200x128 (Scalar.ofBits (F := Ideal) .f32 0x00000000#32)))
      w1 (constant (F := Ideal) S200x64 .f32 0x00000000#32))
    (broadcastTo S200x64 (shapeCast S1x64 b shapeCasts_S1x64_S1x64) broadcasts_S1x64_S200x64)

private theorem sup1Block_apply (xa : FVec Ideal S200x10000 .f32) (s0 : FVec Ideal S10000x128 .f32)
    (w1 : FVec Ideal S128x64 .f32) (b : FVec Ideal S1x64 .f32) (r : Fin 200) (cc : Fin 64) :
    sup1Block xa s0 w1 b (ix2 r cc) = rowSup1 (fun l => xa (ix2 r l)) s0 w1 (row1 b) cc := by
  unfold sup1Block rowSup1
  rw [dotB_eq, dotC_eq, shapeCast_self]
  refine congrArg₂ (· + ·) ((mm_apply _ w1 r cc).trans ?_) (broadcastTo_1b_ab_apply b _ r cc)
  refine Finset.sum_congr rfl fun k _ => ?_
  exact congrArg (fun z => relu z * w1 (ix2 k cc)) (mm_apply xa s0 r k)

theorem pay5_apply (x0 : Vec Ideal S200x10000 .f32) (s0 : Vec Ideal S10000x128 .f32) (x5 : Vec Ideal S128x64 .f32)
    (x6 : Vec Ideal S1x64 .f32) (r : Fin 200) (cc : Fin 64) :
    k0_pay5 (F := Ideal) x0 s0 x5 x6 (ix2 r cc) = rowSup1 (fun l => x0 (ix2 r l)) s0 x5 (row1 x6) cc := by
  unfold k0_pay5
  rw [shapeCast_self]
  exact sup1Block_apply x0 s0 x5 x6 r cc

theorem pay26_apply (x1 : Vec Ideal S200x10000 .f32) (s0 : Vec Ideal S10000x128 .f32) (x5 : Vec Ideal S128x64 .f32)
    (x6 : Vec Ideal S1x64 .f32) (r : Fin 200) (cc : Fin 64) :
    k0_pay2 (F := Ideal) (k0_pay6 (F := Ideal) x1 s0 x5 x6) (ix2 r cc) = rowSup1 (fun l => x1 (ix2 r l)) s0 x5 (row1 x6) cc := by
  unfold k0_pay2 k0_pay6
  rw [shapeCast_self]
  exact sup1Block_apply x1 s0 x5 x6 r cc

/-! ## The row-wise log-softmax of the second layer's activation -/

/-- A block's row maximum, as the kernel spreads it back over the block's columns. -/
private def rowMaxB (v : FVec Ideal S200x64 .f32) : FVec Ideal S200x64 .f32 :=
  broadcastTo S200x64
    (shapeCast S200x1 (multiReduction (F := Ideal) .maximumf [1] S200 v 0xFF800000#32 reduces_S200x64_S200 (.inl rfl) rfl)
      shapeCasts_S200_S200x1)
    broadcasts_S200x1_S200x64

/-- The log of a block's row sum, spread back over the block's columns. -/
private def rowLogSumB (v : FVec Ideal S200x64 .f32) : FVec Ideal S200x64 .f32 :=
  broadcastTo S200x64
    (log (shapeCast S200x1 (multiReduction (F := Ideal) .add [1] S200 v 0x00000000#32 reduces_S200x64_S200 (.inl rfl) rfl)
      shapeCasts_S200_S200x1))
    broadcasts_S200x1_S200x64

private theorem rowMaxB_apply (v : FVec Ideal S200x64 .f32) (r : Fin 200) (cc : Fin 64) :
    rowMaxB v (ix2 r cc) = rowMax (fun c => v (ix2 r c)) := by
  unfold rowMaxB rowMax
  refine (broadcastTo_a1_ab_apply _ _ r cc).trans ?_
  refine (shapeCast_a_a1_apply _ _ r (0 : Fin 1)).trans ?_
  exact rowmax_apply v _ _ _ r

private theorem rowLogSumB_apply (v : FVec Ideal S200x64 .f32) (r : Fin 200) (cc : Fin 64) :
    rowLogSumB v (ix2 r cc) = Ideal.log (∑ c : Fin 64, v (ix2 r c)) := by
  unfold rowLogSumB
  refine (broadcastTo_a1_ab_apply _ _ r cc).trans ?_
  show Ideal.log (shapeCast S200x1 _ shapeCasts_S200_S200x1 (ix2 r (0 : Fin 1))) = _
  refine congrArg Ideal.log ?_
  refine (shapeCast_a_a1_apply _ _ r (0 : Fin 1)).trans ?_
  exact rowsum_apply v _ _ _ r

/-- The shifted log-softmax of a block, row by row, as the kernel writes it. -/
private def lsmBlock (v : FVec Ideal S200x64 .f32) : FVec Ideal S200x64 .f32 :=
  subf (subf v (rowMaxB v)) (rowLogSumB (exp (subf v (rowMaxB v))))

private theorem lsmBlock_apply (v : FVec Ideal S200x64 .f32) (r : Fin 200) (cc : Fin 64) :
    lsmBlock v (ix2 r cc) = rowLsm (fun c => v (ix2 r c)) cc := by
  unfold lsmBlock rowLsm
  show (v (ix2 r cc) - rowMaxB v (ix2 r cc)) - rowLogSumB (exp (subf v (rowMaxB v))) (ix2 r cc) = _
  rw [rowMaxB_apply, rowLogSumB_apply]
  refine congrArg (fun z => (v (ix2 r cc) - rowMax (fun c => v (ix2 r c))) - Ideal.log z) ?_
  refine Finset.sum_congr rfl fun c _ => ?_
  show Ideal.exp (v (ix2 r c) - rowMaxB v (ix2 r c)) = _
  rw [rowMaxB_apply]

/-- relu(a · s1) on a 200-row block a, then the row-wise log-softmax. -/
private theorem act2_lsm_apply (xa : FVec Ideal S200x10000 .f32) (s1 : FVec Ideal S10000x64 .f32) (r : Fin 200) (cc : Fin 64) :
    lsmBlock
        (maximumf
          (matmul (F := Ideal) dot_S200x10000_S10000x64_S200x64_1_0_0_1_n_n none xa s1 (constant (F := Ideal) S200x64 .f32 0x00000000#32))
          (broadcast S200x64 (Scalar.ofBits (F := Ideal) .f32 0x00000000#32))) (ix2 r cc)
      = rowLsm (rowAct2 (fun l => xa (ix2 r l)) s1) cc := by
  refine (lsmBlock_apply _ r cc).trans ?_
  refine congrArg (fun y => rowLsm y cc) (funext fun c => ?_)
  unfold rowAct2
  rw [dotD_eq]
  exact congrArg relu (mm_apply xa s1 r c)

theorem pay3_apply (x0 : Vec Ideal S200x10000 .f32) (s1 : Vec Ideal S10000x64 .f32) (r : Fin 200) (cc : Fin 64) :
    k0_pay3 (F := Ideal) x0 s1 (ix2 r cc) = rowLsm (rowAct2 (fun l => x0 (ix2 r l)) s1) cc :=
  act2_lsm_apply x0 s1 r cc

theorem pay4_apply (x1 : Vec Ideal S200x10000 .f32) (s1 : Vec Ideal S10000x64 .f32) (r : Fin 200) (cc : Fin 64) :
    k0_pay4 (F := Ideal) x1 s1 (ix2 r cc) = rowLsm (rowAct2 (fun l => x1 (ix2 r l)) s1) cc :=
  act2_lsm_apply x1 s1 r cc

end Cert.KernelIdeal.Val

end
-- ==== Proof.KValueT.lean ====
/-
  The two scratch buffers at the ideal instance are the specification's functions of the argument arrays:
  the first is relu(x)·W0 + b0; row 400·t + r of the second is the payload relu(block · s0)·W1 + b1 of the
  adjacency block that holds that row, which is that row of relu(adj·s0)·W1 + b1.
-/
import proofs.«114203_g75668733821266_cont_9to1_m_1126_15_alg».proof.Proof.KValueS
import proofs.«114203_g75668733821266_cont_9to1_m_1126_15_alg».proof.Proof.KPayloads

set_option maxRecDepth 16384

noncomputable section

namespace Cert.KernelIdeal.Val

open Cert.KernelIdeal Cert.KernelIdeal.Gen Cert.GcnSpec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The first bias window's one row, read as a vector, is the first bias vector. -/
theorem row1_b0 (c : Dev nD) (t : Fin cfg0.N) : row1 (Hand.b0Row m c t) = aB0 m c := by
  funext j
  obtain ⟨k, rfl⟩ : ∃ k : Fin 128, j = ix1 k := ⟨j 0, eq_ix1 j⟩
  exact b0Row_apply m c t k

/-- The second bias window's one row, read as a vector, is the second bias vector. -/
theorem row1_b1 (c : Dev nD) (t : Fin cfg0.N) : row1 (Hand.b1Row m c t) = aB1 m c := by
  funext j
  obtain ⟨k, rfl⟩ : ∃ k : Fin 64, j = ix1 k := ⟨j 0, eq_ix1 j⟩
  exact b1Row_apply m c t k

/-- The first scratch is relu(x)·W0 + b0. -/
theorem s0c_eq (c : Dev nD) : Hand.s0c m c = sup0 (aX m c) (aW0 m c) (aB0 m c) :=
  (pay1_eq (Hand.xAll m c Hand.t0) (Hand.w0All m c Hand.t0) (Hand.b0Row m c Hand.t0)).trans
    (by rw [xAll_eq m c Hand.t0, w0All_eq m c Hand.t0, row1_b0 m c Hand.t0])

/-- The second scratch is relu(adj·s0)·W1 + b1. -/
theorem s1c_eq (c : Dev nD) :
    Hand.s1c m c = sup1 (aAdj m c) (sup0 (aX m c) (aW0 m c) (aB0 m c)) (aW1 m c) (aB1 m c) := by
  funext j
  have hj0 : (j 0).val < 10000 := idx2_lt0 j
  have hq25 : (Hand.rowPt j).val % 25 = (j 0).val / 400 := by
    show (j 0).val / 400 % 25 = (j 0).val / 400
    omega
  show Hand.s1c m c j
    = rowSup1 (fun l => aAdj m c (ix2 (j 0) l)) (sup0 (aX m c) (aW0 m c) (aB0 m c)) (aW1 m c) (aB1 m c) (j 1)
  by_cases h : (j 0).val % 400 < 200
  · have e : Hand.s1c m c j
        = k0_pay5 (F := Ideal) (Hand.adjLo m c (Hand.rowPt j)) (Hand.s0c m c) (Hand.w1All m c (Hand.rowPt j))
            (Hand.b1Row m c (Hand.rowPt j))
            (ix2 (⟨(j 0).val % 400, h⟩ : Fin 200) (⟨(j 1).val, idx2_lt1 j⟩ : Fin 64)) := dif_pos h
    have ha : (fun l : Fin 10000 => Hand.adjLo m c (Hand.rowPt j) (ix2 (⟨(j 0).val % 400, h⟩ : Fin 200) l))
        = fun l => aAdj m c (ix2 (j 0) l) :=
      funext fun l =>
        (adjLo_apply m c (Hand.rowPt j) ⟨(j 0).val % 400, h⟩ l (by rw [hq25]; show 400 * ((j 0).val / 400) + (j 0).val % 400 < 10000; omega)).trans
          (congrArg (fun r : Fin 10000 => aAdj m c (ix2 r l)) (Fin.ext (by
            show 400 * ((Hand.rowPt j).val % 25) + (j 0).val % 400 = (j 0).val
            rw [hq25]; omega)))
    rw [e]
    refine (pay5_apply _ _ _ _ _ _).trans ?_
    rw [ha, s0c_eq, w1All_eq, row1_b1]
    rfl
  · have e : Hand.s1c m c j
        = k0_pay2 (F := Ideal) (k0_pay6 (F := Ideal) (Hand.adjHi m c (Hand.rowPt j)) (Hand.s0c m c) (Hand.w1All m c (Hand.rowPt j))
            (Hand.b1Row m c (Hand.rowPt j)))
            (ix2 (⟨(j 0).val % 400 - 200, by omega⟩ : Fin 200) (⟨(j 1).val, idx2_lt1 j⟩ : Fin 64)) := dif_neg h
    have ha : (fun l : Fin 10000 => Hand.adjHi m c (Hand.rowPt j) (ix2 (⟨(j 0).val % 400 - 200, by omega⟩ : Fin 200) l))
        = fun l => aAdj m c (ix2 (j 0) l) :=
      funext fun l =>
        (adjHi_apply m c (Hand.rowPt j) ⟨(j 0).val % 400 - 200, by omega⟩ l (by rw [hq25]; show 400 * ((j 0).val / 400) + 200 + ((j 0).val % 400 - 200) < 10000; omega)).trans
          (congrArg (fun r : Fin 10000 => aAdj m c (ix2 r l)) (Fin.ext (by
            show 400 * ((Hand.rowPt j).val % 25) + 200 + ((j 0).val % 400 - 200) = (j 0).val
            rw [hq25]; omega)))
    rw [e]
    refine (pay26_apply _ _ _ _ _ _).trans ?_
    rw [ha, s0c_eq, w1All_eq, row1_b1]
    rfl

end Cert.KernelIdeal.Val

end
-- ==== Proof.KValueO.lean ====
/-
  The output array at the ideal instance.  A point t of phase 1 leaves in the output window's buffer the
  log-softmax rows 400·(t−25) .. +399 of the network's result: its first 200 rows from the first adjacency
  block against the whole second scratch, the next 200 from the second block.  Every point of phase 1 writes its
  block back, the 25 blocks tile the 10000 rows, and no other point writes back: the array ends at the
  specification's result.
-/
import proofs.«114203_g75668733821266_cont_9to1_m_1126_15_alg».proof.Proof.KValueT

set_option maxRecDepth 16384

noncomputable section

namespace Cert.KernelIdeal.Val

open Cert.KernelIdeal Cert.KernelIdeal.Gen Cert.GcnSpec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## The two half blocks of the output block -/

/-- Below row 200 the block reads the second-listed piece: the first-listed one holds rows 200..399 only. -/
private theorem canon2_lo (wHi wLo : Vec Ideal S200x64 .f32) (r : Fin 400) (cc : Fin 64) (h : r.val < 200) :
    View.canon [(⟨Rect.unit (s := S400x64) ![200, 0] S200x64.size inb_S400x64_S200x64_200_0, wHi⟩ : View.Piece (Elt Ideal) S400x64 .f32),
      ⟨Rect.unit (s := S400x64) ![0, 0] S200x64.size inb_S400x64_S200x64_0_0, wLo⟩] (ix2 r cc)
      = wLo (ix2 (⟨r.val, h⟩ : Fin 200) cc) := by
  have hnot : (ix2 r cc : S400x64.Idx) ∉ (Rect.unit (s := S400x64) ![200, 0] S200x64.size inb_S400x64_S200x64_200_0).set := by
    rw [Rect.mem_set_unit]
    intro hm
    have h0 : 200 ≤ r.val := (hm (0 : Fin 2)).1
    omega
  have e : (ix2 r cc : S400x64.Idx)
      = (Rect.unit (s := S400x64) ![0, 0] S200x64.size inb_S400x64_S200x64_0_0).emb (ix2 (⟨r.val, h⟩ : Fin 200) cc) := by
    funext a; apply Fin.ext
    match a with
    | ⟨0, _⟩ => show r.val = 0 + 1 * r.val; omega
    | ⟨1, _⟩ => show cc.val = 0 + 1 * cc.val; omega
  refine (View.canon_cons_of_not_mem (⟨Rect.unit (s := S400x64) ![200, 0] S200x64.size inb_S400x64_S200x64_200_0, wHi⟩ : View.Piece (Elt Ideal) S400x64 .f32) _ hnot).trans ?_
  rw [e]
  exact View.canon_cons_emb (Val := Elt Ideal) (e := .f32) (Rect.unit (s := S400x64) ![0, 0] S200x64.size inb_S400x64_S200x64_0_0) wLo [] _

/-- From row 200 on it reads the first-listed piece, 200 rows down. -/
private theorem canon2_hi (wHi wLo : Vec Ideal S200x64 .f32) (r : Fin 400) (cc : Fin 64) (h : 200 ≤ r.val) :
    View.canon [(⟨Rect.unit (s := S400x64) ![200, 0] S200x64.size inb_S400x64_S200x64_200_0, wHi⟩ : View.Piece (Elt Ideal) S400x64 .f32),
      ⟨Rect.unit (s := S400x64) ![0, 0] S200x64.size inb_S400x64_S200x64_0_0, wLo⟩] (ix2 r cc)
      = wHi (ix2 (⟨r.val - 200, by have := r.isLt; omega⟩ : Fin 200) cc) := by
  have hr4 : r.val < 400 := r.isLt
  have e : (ix2 r cc : S400x64.Idx)
      = (Rect.unit (s := S400x64) ![200, 0] S200x64.size inb_S400x64_S200x64_200_0).emb (ix2 (⟨r.val - 200, by omega⟩ : Fin 200) cc) := by
    funext a; apply Fin.ext
    match a with
    | ⟨0, _⟩ => show r.val = 200 + 1 * (r.val - 200); omega
    | ⟨1, _⟩ => show cc.val = 0 + 1 * cc.val; omega
  rw [e]
  exact View.canon_cons_emb (Val := Elt Ideal) (e := .f32) (Rect.unit (s := S400x64) ![200, 0] S200x64.size inb_S400x64_S200x64_200_0) wHi _ _

/-- The output block a point of phase 1 leaves, read at an index. -/
theorem out7_apply (c : Dev nD) (t : Fin cfg0.N) (ht : 25 ≤ t.val) (r : Fin 400) (cc : Fin 64) (hr : 400 * (t.val - 25) + r.val < 10000) :
    Hand.out7 m c t (ix2 r cc)
      = GcnSpec.out (aX m c) (aAdj m c) (aW0 m c) (aB0 m c) (aW1 m c) (aB1 m c) (ix2 (⟨400 * (t.val - 25) + r.val, hr⟩ : Fin 10000) cc) := by
  have hN : t.val < 50 := lt_of_lt_of_eq t.isLt N_0
  have hr4 : r.val < 400 := r.isLt
  unfold Hand.out7
  by_cases h : r.val < 200
  · refine (canon2_lo (k0_pay4 (F := Ideal) (Hand.adjHi m c t) (Hand.s1c m c)) (k0_pay3 (F := Ideal) (Hand.adjLo m c t) (Hand.s1c m c)) r cc h).trans ?_
    refine (pay3_apply (Hand.adjLo m c t) (Hand.s1c m c) ⟨r.val, h⟩ cc).trans ?_
    have hrow : ∀ l : Fin 10000, Hand.adjLo m c t (ix2 (⟨r.val, h⟩ : Fin 200) l)
        = aAdj m c (ix2 (⟨400 * (t.val - 25) + r.val, hr⟩ : Fin 10000) l) := fun l =>
      (adjLo_apply m c t ⟨r.val, h⟩ l (by show 400 * (t.val % 25) + r.val < 10000; omega)).trans
        (congrArg (fun R : Fin 10000 => aAdj m c (ix2 R l))
          (Fin.ext (by show 400 * (t.val % 25) + r.val = 400 * (t.val - 25) + r.val; omega)))
    unfold GcnSpec.out
    exact congrArg₂ (fun (a : Fin 10000 → EReal) (s : A2 10000 64) => rowLsm (rowAct2 a s) cc) (funext hrow) (s1c_eq m c)
  · have h' : 200 ≤ r.val := Nat.le_of_not_lt h
    refine (canon2_hi (k0_pay4 (F := Ideal) (Hand.adjHi m c t) (Hand.s1c m c)) (k0_pay3 (F := Ideal) (Hand.adjLo m c t) (Hand.s1c m c)) r cc h').trans ?_
    refine (pay4_apply (Hand.adjHi m c t) (Hand.s1c m c) ⟨r.val - 200, by omega⟩ cc).trans ?_
    have hrow : ∀ l : Fin 10000, Hand.adjHi m c t (ix2 (⟨r.val - 200, by omega⟩ : Fin 200) l)
        = aAdj m c (ix2 (⟨400 * (t.val - 25) + r.val, hr⟩ : Fin 10000) l) := fun l =>
      (adjHi_apply m c t ⟨r.val - 200, by omega⟩ l (by show 400 * (t.val % 25) + 200 + (r.val - 200) < 10000; omega)).trans
        (congrArg (fun R : Fin 10000 => aAdj m c (ix2 R l))
          (Fin.ext (by show 400 * (t.val % 25) + 200 + (r.val - 200) = 400 * (t.val - 25) + r.val; omega)))
    unfold GcnSpec.out
    exact congrArg₂ (fun (a : Fin 10000 → EReal) (s : A2 10000 64) => rowLsm (rowAct2 a s) cc) (funext hrow) (s1c_eq m c)

/-! ## From the blocks to the array -/

/-- The output window's block index at a point of phase 1: row block t − 25, column block 0. -/
private theorem idx7 : ∀ t : Fin cfg0.N, 25 ≤ t.val →
    win0_7.index t (0 : Fin 2) = t.val - 25 ∧ win0_7.index t (1 : Fin 2) = 0 :=
  (by decide +kernel : ∀ t : Fin grid0.N, 25 ≤ t.val →
    win0_7.index t (0 : Fin 2) = t.val - 25 ∧ win0_7.index t (1 : Fin 2) = 0)

/-- The block at an index of its own, against the result at the array's index it sits at. -/
private theorem out7_at (c : Dev nD) (t : Fin cfg0.N) (ht : 25 ≤ t.val) (y : S400x64.Idx) (i : S10000x64.Idx)
    (h0 : (i 0).val = 400 * (t.val - 25) + (y 0).val) (h1 : (i 1).val = (y 1).val) :
    Hand.out7 m c t y = GcnSpec.out (aX m c) (aAdj m c) (aW0 m c) (aB0 m c) (aW1 m c) (aB1 m c) i := by
  obtain ⟨r, cc, rfl⟩ : ∃ (r : Fin 400) (cc : Fin 64), y = ix2 r cc := ⟨y 0, y 1, eq_ix2 y⟩
  have h0' : (i 0).val = 400 * (t.val - 25) + r.val := h0
  have h1' : (i 1).val = cc.val := h1
  have hr : 400 * (t.val - 25) + r.val < 10000 := by
    have hi := idx2_lt0 i
    omega
  have hi : i = ix2 (⟨400 * (t.val - 25) + r.val, hr⟩ : Fin 10000) cc := by
    funext a; apply Fin.ext
    match a with
    | ⟨0, _⟩ => exact h0'
    | ⟨1, _⟩ => exact h1'
  rw [hi]
  exact out7_apply m c t ht r cc hr

/-- What a point of phase 1 writes back is its block of the result. -/
private theorem flushed7_eq (c : Dev nD) (t : Fin cfg0.N) (ht : 25 ≤ t.val) :
    (Hand.dats m 0 c).flushed 7 t
      = ((cfg0.win 7).blk t).view.read (Elt Ideal) (GcnSpec.out (aX m c) (aAdj m c) (aW0 m c) (aB0 m c) (aW1 m c) (aB1 m c)) := by
  show (cfg0.win 7).cut (grid0.coords t) ((Hand.dats m 0 c).after 7 t) = _
  rw [Hand.after0_7]
  obtain ⟨e0, e1⟩ := idx7 t ht
  funext y
  show Hand.out7 m c t y
    = GcnSpec.out (aX m c) (aAdj m c) (aW0 m c) (aB0 m c) (aW1 m c) (aB1 m c) (((cfg0.win 7).blk t).view.emb y)
  refine out7_at m c t ht y _ ?_ ?_
  · show win0_7.index t (0 : Fin 2) * 400 + 1 * (y 0).val = 400 * (t.val - 25) + (y 0).val
    rw [e0]; omega
  · show win0_7.index t (1 : Fin 2) * 64 + 1 * (y 1).val = (y 1).val
    rw [e1]; omega

/-- An index of the array is in a point's block iff each coordinate is in the block's range on its axis. -/
private theorem mem_blk7 (t : Fin cfg0.N) (i : S10000x64.Idx) :
    i ∈ ((cfg0.win 7).blk t).view.set ↔ ∀ a : Fin 2, win0_7.index t a * S400x64.size a ≤ (i a).val ∧ (i a).val < win0_7.index t a * S400x64.size a + S400x64.size a := by
  show i ∈ ((View.whole main_v0).slice (win0_7.rect t)).set ↔ _
  rw [View.set_slice_whole, Rect.mem_set_unit]
  exact Iff.rfl

/-- Row i0 of the array lies in the block of the point 25 + i0 / 400. -/
private theorem cover7 (i : S10000x64.Idx) :
    ∃ t : Fin cfg0.N, (cfg0.win 7).flush t = true ∧ i ∈ ((cfg0.win 7).blk t).view.set := by
  have hi0 : (i 0).val < 10000 := idx2_lt0 i
  have hi1 : (i 1).val < 64 := idx2_lt1 i
  have hN : grid0.N = 50 := N_0
  obtain ⟨t, htv⟩ : ∃ t : Fin cfg0.N, t.val = 25 + (i 0).val / 400 :=
    ⟨⟨25 + (i 0).val / 400, by show 25 + (i 0).val / 400 < grid0.N; rw [hN]; omega⟩, rfl⟩
  have ht : 25 ≤ t.val := by omega
  obtain ⟨e0, e1⟩ := idx7 t ht
  refine ⟨t, (Hand.flush0_7 t).mpr ht, ?_⟩
  rw [mem_blk7]
  intro a
  match a with
  | ⟨0, _⟩ =>
    show win0_7.index t (0 : Fin 2) * 400 ≤ (i 0).val ∧ (i 0).val < win0_7.index t (0 : Fin 2) * 400 + 400
    rw [e0]; omega
  | ⟨1, _⟩ =>
    show win0_7.index t (1 : Fin 2) * 64 ≤ (i 1).val ∧ (i 1).val < win0_7.index t (1 : Fin 2) * 64 + 64
    rw [e1]; omega

/-- The output array after the last point is the specification's result. -/
theorem final7 (c : Dev nD) :
    (Hand.dats m 0 c).arrAt 7 cfg0.N
      = GcnSpec.out (aX m c) (aAdj m c) (aW0 m c) (aB0 m c) (aW1 m c) (aB1 m c) :=
  (Hand.dats m 0 c).arrAt_eq_of_cover 7 (GcnSpec.out (aX m c) (aAdj m c) (aW0 m c) (aB0 m c) (aW1 m c) (aB1 m c))
    (fun t hf => flushed7_eq m c t ((Hand.flush0_7 t).mp hf)) cover7

end Cert.KernelIdeal.Val

end
-- ==== Proof.RefValue.lean ====
/-
  The reference program computes the specification.  Its result, read stage by stage at an index (the stages and their
  readings are RefRead.lean's), is the two-layer graph convolution with a row-wise log-softmax of Spec.lean, index by
  index over the extended reals:
    stage v4  = sup0,   stage v10 = sup1,   stage v12 at (p, q) = rowAct2 (row p of adj) sup1 q,
    the row maximum is the fold of max from −∞ (and max −∞ a = a),
    the row sum of exponentials is 0 + Σ = Σ,
    and the last two subtractions are rowLsm.
  The index functions of the stages (a product's left and right operand indices, a broadcast's source index) are
  identified once with the coordinate constructors ix2 / ix1.
-/
import proofs.«114203_g75668733821266_cont_9to1_m_1126_15_alg».proof.Proof.RefRead
import proofs.«114203_g75668733821266_cont_9to1_m_1126_15_alg».proof.Proof.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## The stages' index functions at coordinates -/

theorem lidx_v1 (p : Fin 10000) (q k : Fin 128) : ReadP.lidx_main_v1 (ix2 p q) k = ix2 p k :=
  funext fun a => Fin.ext (by match a with | ⟨0, _⟩ => rfl | ⟨1, _⟩ => rfl)
theorem ridx_v1 (p : Fin 10000) (q k : Fin 128) : ReadP.ridx_main_v1 (ix2 p q) k = ix2 k q :=
  funext fun a => Fin.ext (by match a with | ⟨0, _⟩ => rfl | ⟨1, _⟩ => rfl)
theorem idx_v3_v2 (p : Fin 10000) (q : Fin 128) : ReadP.idx_main_v2 (ReadP.idx_main_v3 (ix2 p q)) = ix1 q :=
  funext fun a => Fin.ext (by match a with | ⟨0, _⟩ => rfl)
theorem lidx_v5 (p : Fin 10000) (q : Fin 128) (l : Fin 10000) : ReadP.lidx_main_v5 (ix2 p q) l = ix2 p l :=
  funext fun a => Fin.ext (by match a with | ⟨0, _⟩ => rfl | ⟨1, _⟩ => rfl)
theorem ridx_v5 (p : Fin 10000) (q : Fin 128) (l : Fin 10000) : ReadP.ridx_main_v5 (ix2 p q) l = ix2 l q :=
  funext fun a => Fin.ext (by match a with | ⟨0, _⟩ => rfl | ⟨1, _⟩ => rfl)
theorem lidx_v7 (p : Fin 10000) (q : Fin 64) (k : Fin 128) : ReadP.lidx_main_v7 (ix2 p q) k = ix2 p k :=
  funext fun a => Fin.ext (by match a with | ⟨0, _⟩ => rfl | ⟨1, _⟩ => rfl)
theorem ridx_v7 (p : Fin 10000) (q : Fin 64) (k : Fin 128) : ReadP.ridx_main_v7 (ix2 p q) k = ix2 k q :=
  funext fun a => Fin.ext (by match a with | ⟨0, _⟩ => rfl | ⟨1, _⟩ => rfl)
theorem idx_v9_v8 (p : Fin 10000) (q : Fin 64) : ReadP.idx_main_v8 (ReadP.idx_main_v9 (ix2 p q)) = ix1 q :=
  funext fun a => Fin.ext (by match a with | ⟨0, _⟩ => rfl)
theorem lidx_v11 (p : Fin 10000) (q : Fin 64) (l : Fin 10000) : ReadP.lidx_main_v11 (ix2 p q) l = ix2 p l :=
  funext fun a => Fin.ext (by match a with | ⟨0, _⟩ => rfl | ⟨1, _⟩ => rfl)
theorem ridx_v11 (p : Fin 10000) (q : Fin 64) (l : Fin 10000) : ReadP.ridx_main_v11 (ix2 p q) l = ix2 l q :=
  funext fun a => Fin.ext (by match a with | ⟨0, _⟩ => rfl | ⟨1, _⟩ => rfl)
theorem idx_c3v3_c3v4 (p : Fin 10000) (q : Fin 64) : ReadP.idx_main_call3_v3 (ReadP.idx_main_call3_v4 (ix2 p q)) = ix1 p :=
  funext fun a => Fin.ext (by match a with | ⟨0, _⟩ => rfl)
theorem idx_c3v7 (p : Fin 10000) (k : Fin 64) : ReadP.idx_main_call3_v7 (ix1 p) k = ix2 p k :=
  funext fun a => Fin.ext (by match a with | ⟨0, _⟩ => rfl | ⟨1, _⟩ => rfl)
theorem idx_c3v8_c3v10 (p : Fin 10000) (q : Fin 64) : ReadP.idx_main_call3_v8 (ReadP.idx_main_call3_v10 (ix2 p q)) = ix1 p :=
  funext fun a => Fin.ext (by match a with | ⟨0, _⟩ => rfl)

/-- The reduced index (p) with column k put back on the dropped axis is (p, k). -/
theorem lift_d1 (h : S10000x64.Reduces [1] S10000) (p : Fin 10000) (k : Fin (S10000x64.size 1)) :
    h.lift (ix1 p) k = ix2 p (⟨k.val, k.isLt⟩ : Fin 64) :=
  funext fun a => Fin.ext (by match a with | ⟨0, _⟩ => rfl | ⟨1, _⟩ => rfl)

/-- Against −∞ the maximum is the other operand. -/
theorem max_negInf (a : EReal) : max (Ideal.ofBits .f32 0xFF800000#32) a = a := by
  simp [Ideal.ofBits, Ideal.ieee]

section Stages

variable (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal))

/-! ## The two graph-convolution layers -/

theorem v0_ix (p : Fin 10000) (k : Fin 128) :
    ReadP.val_main_v0 (F := Ideal) x0 (ix2 p k) = GcnSpec.relu (x0 (ix2 p k)) := by
  rw [ReadP.val_main_v0_apply, ReadP.val_main_call0_v0_apply, ReadP.val_main_call0_cst_apply]
  rfl

theorem v4_eq : ReadP.val_main_v4 (F := Ideal) x0 x2 x3 = GcnSpec.sup0 x0 x2 x3 := by
  funext i
  obtain ⟨p, q, rfl⟩ : ∃ (p : Fin 10000) (q : Fin 128), i = ix2 p q := ⟨i 0, i 1, eq_ix2 i⟩
  rw [ReadP.val_main_v4_apply, ReadP.val_main_v1_apply, ReadP.val_main_v3_apply, ReadP.val_main_v2_apply]
  simp only [lidx_v1, ridx_v1, idx_v3_v2, v0_ix]
  rfl

theorem v6_ix (p : Fin 10000) (k : Fin 128) :
    ReadP.val_main_v6 (F := Ideal) x0 x1 x2 x3 (ix2 p k)
      = GcnSpec.relu (∑ l : Fin 10000, x1 (ix2 p l) * GcnSpec.sup0 x0 x2 x3 (ix2 l k)) := by
  rw [ReadP.val_main_v6_apply, ReadP.val_main_call1_v0_apply, ReadP.val_main_call1_cst_apply, ReadP.val_main_v5_apply, v4_eq]
  simp only [lidx_v5, ridx_v5]
  rfl

theorem v10_eq : ReadP.val_main_v10 (F := Ideal) x0 x1 x2 x3 x4 x5 = GcnSpec.sup1 x1 (GcnSpec.sup0 x0 x2 x3) x4 x5 := by
  funext i
  obtain ⟨p, q, rfl⟩ : ∃ (p : Fin 10000) (q : Fin 64), i = ix2 p q := ⟨i 0, i 1, eq_ix2 i⟩
  rw [ReadP.val_main_v10_apply, ReadP.val_main_v7_apply, ReadP.val_main_v9_apply, ReadP.val_main_v8_apply]
  simp only [lidx_v7, ridx_v7, idx_v9_v8, v6_ix]
  rfl

theorem v12_ix (p : Fin 10000) (q : Fin 64) :
    ReadP.val_main_v12 (F := Ideal) x0 x1 x2 x3 x4 x5 (ix2 p q)
      = GcnSpec.rowAct2 (fun l => x1 (ix2 p l)) (GcnSpec.sup1 x1 (GcnSpec.sup0 x0 x2 x3) x4 x5) q := by
  rw [ReadP.val_main_v12_apply, ReadP.val_main_call2_v0_apply, ReadP.val_main_call2_cst_apply, ReadP.val_main_v11_apply, v10_eq]
  simp only [lidx_v11, ridx_v11]
  rfl

/-! ## The row-wise log-softmax -/

/-- The reference's row maximum — the maximum of −∞ and the fold of max from −∞ over the row — is the row's maximum. -/
theorem rowmax_ix (p : Fin 10000) :
    ReadP.val_main_call3_v2 (F := Ideal) x0 x1 x2 x3 x4 x5 (ix1 p)
      = GcnSpec.rowMax (fun c => ReadP.val_main_v12 (F := Ideal) x0 x1 x2 x3 x4 x5 (ix2 p c)) := by
  rw [ReadP.val_main_call3_v2_apply, ReadP.val_main_call3_v1_apply, ReadP.val_main_call3_cst_0_apply,
    Ideal.maximumf_def, Ideal.ofBits_def, max_negInf]
  unfold ReadP.val_main_call3_v0
  generalize ReadP.val_main_v12 (F := Ideal) x0 x1 x2 x3 x4 x5 = y
  have hred : S10000x64.Reduces [1] S10000 := by decide
  refine (Host.reduce_eq_fold_single (FloatOps.maximumf (F := Ideal) (φ := .f32)) y _ reducesTo_S10000x64_S10000_d1 hred h_S_
    (ix1 p)).trans ?_
  have hf : (y ∘ hred.lift (ix1 p)) = fun c : Fin 64 => y (ix2 p c) := funext fun k => congrArg y (lift_d1 hred p k)
  exact congrArg (fun f => Finset.fold max (Ideal.ofBits .f32 0xFF800000#32) f (Finset.univ : Finset (Fin 64))) hf

theorem c3v4_ix (p : Fin 10000) (q : Fin 64) :
    ReadP.val_main_call3_v4 (F := Ideal) x0 x1 x2 x3 x4 x5 (ix2 p q)
      = GcnSpec.rowMax (fun c => ReadP.val_main_v12 (F := Ideal) x0 x1 x2 x3 x4 x5 (ix2 p c)) := by
  rw [ReadP.val_main_call3_v4_apply, ReadP.val_main_call3_v3_apply, idx_c3v3_c3v4, rowmax_ix]

theorem c3v5_ix (p : Fin 10000) (q : Fin 64) :
    ReadP.val_main_call3_v5 (F := Ideal) x0 x1 x2 x3 x4 x5 (ix2 p q)
      = ReadP.val_main_v12 (F := Ideal) x0 x1 x2 x3 x4 x5 (ix2 p q)
        - GcnSpec.rowMax (fun c => ReadP.val_main_v12 (F := Ideal) x0 x1 x2 x3 x4 x5 (ix2 p c)) := by
  rw [ReadP.val_main_call3_v5_apply, c3v4_ix]
  rfl

/-- The reference's row sum of exponentials, 0 + Σ, is Σ. -/
theorem c3v7_ix (p : Fin 10000) :
    ReadP.val_main_call3_v7 (F := Ideal) x0 x1 x2 x3 x4 x5 (ix1 p)
      = ∑ c : Fin 64, Ideal.exp (ReadP.val_main_v12 (F := Ideal) x0 x1 x2 x3 x4 x5 (ix2 p c)
          - GcnSpec.rowMax (fun c' => ReadP.val_main_v12 (F := Ideal) x0 x1 x2 x3 x4 x5 (ix2 p c'))) := by
  rw [ReadP.val_main_call3_v7_apply, ReadP.val_main_call3_cst_1_apply]
  simp only [idx_c3v7, ReadP.val_main_call3_v6_apply, c3v5_ix, Ideal.ofBits_def, Ideal.hostUnary_exp_def,
    Ideal.ofBits_zero_f32, zero_add]

theorem c3v10_ix (p : Fin 10000) (q : Fin 64) :
    ReadP.val_main_call3_v10 (F := Ideal) x0 x1 x2 x3 x4 x5 (ix2 p q)
      = Ideal.log (∑ c : Fin 64, Ideal.exp (ReadP.val_main_v12 (F := Ideal) x0 x1 x2 x3 x4 x5 (ix2 p c)
          - GcnSpec.rowMax (fun c' => ReadP.val_main_v12 (F := Ideal) x0 x1 x2 x3 x4 x5 (ix2 p c')))) := by
  rw [ReadP.val_main_call3_v10_apply, ReadP.val_main_call3_v9_apply, ReadP.val_main_call3_v8_apply, idx_c3v8_c3v10, c3v7_ix]
  rfl

end Stages

/-! ## The reference's result is the specification -/

theorem val_eq_out (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) :
    ReadP.val_main_v13 (F := Ideal) x0 x1 x2 x3 x4 x5 = Cert.GcnSpec.out x0 x1 x2 x3 x4 x5 := by
  funext i
  obtain ⟨p, q, rfl⟩ : ∃ (p : Fin 10000) (q : Fin 64), i = ix2 p q := ⟨i 0, i 1, eq_ix2 i⟩
  rw [ReadP.val_main_v13_apply, c3v5_ix, c3v10_ix]
  simp only [v12_ix]
  rfl

/-- On every device, from any memory with zero counters, every weakly fair execution of the reference terminates with its
    result at the specification of the arguments' launch contents, the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13) = Cert.GcnSpec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c => ⟨((h c).1.trans (ReadP.val_main_v13_eq m c)).trans (val_eq_out _ _ _ _ _ _), (h c).2⟩)
    (ValueP.run (F := Ideal) m ρ)

end Cert.ReferenceIdeal.RefValue

end
-- ==== Proof.lean ====
/-
  The certificate of a two-layer graph convolution with a row-wise log-softmax,
      out = lsm(relu(adj · (relu(adj · (relu(x)·W0 + b0))·W1 + b1))),
  computed by ONE pipelined kernel on a 2 × 25 grid against its whole-array reference.  Phase 0 of the grid
  fills two scratch buffers — s0 = relu(x)·W0 + b0 once, then 400 rows a point of s1 = relu(adj·s0)·W1 + b1 from
  two 200-row blocks of adj —; phase 1 walks the row blocks again and stores the log-softmax rows of
  relu(adj·s1).  Over the extended reals a row block of a matrix product is the same finite sums as those rows of
  the whole product, the row maximum and the row sum are the same folds, so both programs end at the same
  function of the arguments (Spec.lean), with no use of the inputs' finiteness.
  The frames: the kernel's program runs to the end at either float instance with its arguments unchanged (the
  body obligation point by point, the adjacency matrix's share split between the two windows that read it);
  the reference is a straight line of host operations.  The idealization rewrote nothing.
-/
import proofs.«114203_g75668733821266_cont_9to1_m_1126_15_alg».proof.Defs
import proofs.«114203_g75668733821266_cont_9to1_m_1126_15_alg».proof.Proof.Gen.Kernel
import proofs.«114203_g75668733821266_cont_9to1_m_1126_15_alg».proof.Proof.Gen.KernelIdeal
import proofs.«114203_g75668733821266_cont_9to1_m_1126_15_alg».proof.Proof.Gen.ReferenceIdeal
import proofs.«114203_g75668733821266_cont_9to1_m_1126_15_alg».proof.Proof.Gen.Pre_finite_inputs
import proofs.«114203_g75668733821266_cont_9to1_m_1126_15_alg».proof.Proof.BLaunch
import proofs.«114203_g75668733821266_cont_9to1_m_1126_15_alg».proof.Proof.KLaunch
import proofs.«114203_g75668733821266_cont_9to1_m_1126_15_alg».proof.Proof.KValueO
import proofs.«114203_g75668733821266_cont_9to1_m_1126_15_alg».proof.Proof.RefValue

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run_spec m ρ)

/-- Both idealized programs end at the specification's function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (Cert.KernelIdeal.Hand.dats m 0 c).arrAt 7 Cert.KernelIdeal.cfg0.N, Cert.KernelIdeal.Hand.run_named m ρ, ?_⟩
  refine (θ_run Cert.ReferenceIdeal.defs _ _).mono (fun _ h c => ⟨(h c).1.trans ?_, (h c).2⟩)
    (Cert.ReferenceIdeal.RefValue.run_spec m' ρ')
  rw [(hagree c).1, (hagree c).2.1, (hagree c).2.2.1, (hagree c).2.2.2.1, (hagree c).2.2.2.2.1, (hagree c).2.2.2.2.2]
  exact (Cert.KernelIdeal.Val.final7 m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
